-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 1]⟩ ⟨2, ![1024, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Kernel.lean ====
abbrev S512x256 : Shape := ⟨2, ![512, 256]⟩
abbrev S512x1 : Shape := ⟨2, ![512, 1]⟩
abbrev S2x4x128 : Shape := ⟨3, ![2, 4, 128]⟩
abbrev S_ : Shape := ⟨0, ![]⟩
abbrev S4x128x256 : Shape := ⟨3, ![4, 128, 256]⟩
abbrev S4x128 : Shape := ⟨2, ![4, 128]⟩
abbrev S1x4x128 : Shape := ⟨3, ![1, 4, 128]⟩
abbrev S128x4 : Shape := ⟨2, ![128, 4]⟩
abbrev S128x1 : Shape := ⟨2, ![128, 1]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S512x1, .f32⟩
  | .local _ .vmem, ⟨0, _⟩ => ⟨S512x256, .f32⟩
  | .local _ .vmem, ⟨1, _⟩ => ⟨S512x1, .f32⟩
  | .local _ .vmem, ⟨2, _⟩ => ⟨S2x4x128, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_14 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_13 : BitVec 32 := 2#32
  let v19 : BitVec 32 := Scalar.muli v2 c2_i32_13
  let v20 : BitVec 32 := Scalar.addi c0_i32_14 v19
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_15 : BitVec 32 := 1#32
  let v21 : BitVec 32 := Scalar.muli v6 c1_i32_15
  let v22 : BitVec 32 := Scalar.addi v20 v21
  v22.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S512x256_S4x128x256 : S512x256.ShapeCasts S4x128x256
  reduces_S4x128x256_S4x128 : S4x128x256.Reduces [2] S4x128
  inb_S2x4x128_S1x4x128_0_0_0 : ∀ a, (![0, 0, 0] : Fin 3 → Nat) a + S1x4x128.size a ≤ S2x4x128.size a
  h_S1x4x128 : 0 < S1x4x128.numel
  shapeCasts_S1x4x128_S4x128 : S1x4x128.ShapeCasts S4x128
  shapeCasts_S4x128_S1x4x128 : S4x128.ShapeCasts S1x4x128
  inb_S2x4x128_S1x4x128_1_0_0 : ∀ a, (![1, 0, 0] : Fin 3 → Nat) a + S1x4x128.size a ≤ S2x4x128.size a
  squeezes_S1x4x128_S4x128 : S1x4x128.Squeezes S4x128
  transposes_S4x128_p1_0_S128x4 : S4x128.Transposes [1, 0] S128x4
  slices_S128x4_o0_0_S128x1 : S128x4.Slices ![0, 0] S128x1
  inb_S512x1_S128x1_0_0 : ∀ a, (![0, 0] : Fin 2 → Nat) a + S128x1.size a ≤ S512x1.size a
  h_S128x1 : 0 < S128x1.numel
  slices_S128x4_o0_1_S128x1 : S128x4.Slices ![0, 1] S128x1
  inb_S512x1_S128x1_128_0 : ∀ a, (![128, 0] : Fin 2 → Nat) a + S128x1.size a ≤ S512x1.size a
  slices_S128x4_o0_2_S128x1 : S128x4.Slices ![0, 2] S128x1
  inb_S512x1_S128x1_256_0 : ∀ a, (![256, 0] : Fin 2 → Nat) a + S128x1.size a ≤ S512x1.size a
  slices_S128x4_o0_3_S128x1 : S128x4.Slices ![0, 3] S128x1
  inb_S512x1_S128x1_384_0 : ∀ a, (![384, 0] : Fin 2 → Nat) a + S128x1.size a ≤ S512x1.size a
  hcc0_scratch1 : 2 + S_.numel ≤ 4
  hcc0_scratch2 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch1 : DmaSems sig S_ := SemArray.consecutive 2 S_ hcc0_scratch1
abbrev cc0_scratch2 : DmaSems sig S_ := SemArray.consecutive 3 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x512 : Shape := ⟨2, ![1024, 512]⟩
abbrev S_ : Shape := ⟨0, ![]⟩
abbrev S1024 : Shape := ⟨1, ![1024]⟩
abbrev S1024x1 : Shape := ⟨2, ![1024, 1]⟩

abbrev nBuf : Space → Nat
  | .hbm => 7
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S_, .f32⟩
  | .hbm, ⟨2, _⟩ => ⟨S1024, .f32⟩
  | .hbm, ⟨3, _⟩ => ⟨S1024x1, .f32⟩
  | .hbm, ⟨4, _⟩ => ⟨S_, .f32⟩
  | .hbm, ⟨5, _⟩ => ⟨S1024x1, .f32⟩
  | .hbm, ⟨6, _⟩ => ⟨S1024x1, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)

variable [Facts₀]

class Facts : Prop extends Facts₀ where

variable [Facts]
-- ==== Proof.Spec.lean ====
/- The vocabulary shared by the run of the kernel and by its value: which device is a device's
   partner, where the four stores of the result land, and the result as a pure function of the
   two devices' blocks. -/
import proofs.«900962_g7700000000000963_dist_mean_ax1_xy_m512_n256_v7x_xy2x2_f32_1_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic

variable {F : FTy → Type} [FloatOps F]

/-- The partner of device `c`: the device in the same mesh row (same coordinate on axis 0) at the
    other coordinate on axis 1. Devices are numbered row-major, so it is `c` with its last bit flipped. -/
def nbr (c : Dev nD) : Dev nD := ⟨(2 * (c.val / 2) + 1) - (c.val % 2), by have h : c.val < 4 := c.isLt; show _ < 4; omega⟩

theorem nbr_nbr (c : Dev nD) : nbr (nbr c) = c := by revert c; decide
theorem nbr_ne (c : Dev nD) : nbr c ≠ c := by revert c; decide

/-- The four row bands of the result block: rows [128 i, 128 i + 128), the one column. -/
abbrev rO0 : Rect S512x1 := Rect.unit (s := S512x1) ![0, 0] S128x1.size inb_S512x1_S128x1_0_0
abbrev rO128 : Rect S512x1 := Rect.unit (s := S512x1) ![128, 0] S128x1.size inb_S512x1_S128x1_128_0
abbrev rO256 : Rect S512x1 := Rect.unit (s := S512x1) ![256, 0] S128x1.size inb_S512x1_S128x1_256_0
abbrev rO384 : Rect S512x1 := Rect.unit (s := S512x1) ![384, 0] S128x1.size inb_S512x1_S128x1_384_0

/-- A device's partial row sums: its block's 512 rows summed over its 256 columns, laid out 4 × 128. -/
def rowS (X : Vec F S512x256 .f32) : Vec F S1x4x128 .f32 := k0_pay1 X

/-- The result block from the device's own partial row sums `S` and its partner's `R`: band `i` of the
    rows holds column `i` of the transposed, scaled and added sums (the last store first). -/
def outVal (S R : Vec F S1x4x128 .f32) : Vec F S512x1 .f32 :=
  View.canon [⟨rO384, k0_pay6 S R⟩, ⟨rO256, k0_pay5 S R⟩, ⟨rO128, k0_pay4 S R⟩, ⟨rO0, k0_pay3 S R⟩]

/-- The four bands tile the result block. -/
theorem cover_out (p0 p1 p2 p3 : Vec F S128x1 .f32) (y : S512x1.Idx) :
    ∃ pc ∈ ([⟨rO384, p3⟩, ⟨rO256, p2⟩, ⟨rO128, p1⟩, ⟨rO0, p0⟩] : List (View.Piece (Elt F) S512x1 .f32)), y ∈ pc.1.set :=
  View.cover_of_tiled [⟨rO384, p3⟩, ⟨rO256, p2⟩, ⟨rO128, p1⟩, ⟨rO0, p0⟩] S128x1.size (by rfl) y

end Cert.KernelIdeal.Hand

end
-- ==== Proof.Proto.lean ====
/- The cross-device protocol of the row-mean kernel on the 2 × 2 mesh, as a schedule of the rounds
   discipline. Each device has three cells. Its barrier cell has one duty, paid by its partner's
   entry signal: the partner hands over row 1 of its own exchange buffer (where this device's
   partial sums will land) and the fact that its receive cell stands at round 0. Its send cell has
   one duty, paid when the engine has read row 0 of the exchange buffer: a read share of that row
   comes back. Its receive cell has one duty, paid when the partner's copy has landed: row 1 of the
   exchange buffer comes back holding the partner's partial sums. The contents are named from the
   start: the exchange buffer of device `c` ends holding `scr c`, row 0 the device's own partial
   row sums and row 1 its partner's. -/
import proofs.«900962_g7700000000000963_dist_mean_ax1_xy_m512_n256_v7x_xy2x2_f32_1_alg».proof.Proof.Spec
import proofs.«900962_g7700000000000963_dist_mean_ax1_xy_m512_n256_v7x_xy2x2_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (one duty per round: `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def st0 : MemSt nD τ sig (Elt F) := ⟨m, fun _ => 0, ρ⟩

/-! ## The partner -/

/-- Both device chains of the body (the entry signal's and the copy's) name the partner. -/
theorem dev1_eq (c : Dev nD) : (⟨k0_dev1 c, k0_dev1_lt c⟩ : Dev nD) = nbr c := Fin.ext (k0_dev1_eq c)
theorem dev2_eq (c : Dev nD) : (⟨k0_dev2 c, k0_dev2_lt c⟩ : Dev nD) = nbr c := Fin.ext (k0_dev2_eq c)

/-- The partner map is an involution of the mesh. -/
def pair : Dev nD ≃ Dev nD := ⟨nbr, nbr, nbr_nbr, nbr_nbr⟩

/-! ## The memrefs and cells -/

abbrev xM : Memref sig .tc .vmem S512x256 .f32 := Memref.whole cc0_stg0_0
abbrev oM : Memref sig .tc .vmem S512x1 .f32 := Memref.whole cc0_stg1_0
abbrev sM : Memref sig .tc .vmem S2x4x128 .f32 := Memref.whole cc0_scratch0

/-- Rows 0 and 1 of the exchange buffer. -/
abbrev rS0 : Rect S2x4x128 := Rect.unit (s := S2x4x128) ![0, 0, 0] S1x4x128.size inb_S2x4x128_S1x4x128_0_0_0
abbrev rS1 : Rect S2x4x128 := Rect.unit (s := S2x4x128) ![1, 0, 0] S1x4x128.size inb_S2x4x128_S1x4x128_1_0_0
/-- The same rows as the copy names them: sliced, the unit axis dropped. -/
abbrev slot0M : Memref sig .tc .vmem S4x128 .f32 := (sM.slice rS0 (fun _ => rfl)).squeeze S4x128 squeezes_S1x4x128_S4x128
abbrev slot1M : Memref sig .tc .vmem S4x128 .f32 := (sM.slice rS1 (fun _ => rfl)).squeeze S4x128 squeezes_S1x4x128_S4x128

/-- The runtime's barrier semaphore of collective id 0 (unscoped), the send and receive DMA semaphores (scoped scratch). -/
abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's OWN (scoped) semaphores, as the launch theorem indexes them: send, receive; -/
abbrev osem : Fin 2 → SemLoc sig := fun | 0 => .dma sendS.sem | 1 => .dma recvS.sem
/-- all three of the protocol's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit one row's copy pays. -/
abbrev N : ℕ := 128
theorem N_def : N = (slot1M : Memref sig .tc .vmem S4x128 .f32).view.dmaCredit := by rfl
theorem N_pos : 0 < N := by decide

/-! ## Contents -/

/-- Device `c`'s block of the input as its staging buffer holds it. -/
def xstg (c : Dev nD) : (cc0_stg0_0 : Ref sig .tc).ty.Contents (Elt F) :=
  (win0_0.blk (0 : Fin 1)).view.read (Elt F) ((st0 m ρ).mem ((c : Thread nD τ).loc main_arg0))

/-- The two rows of the exchange buffer as views of it. -/
abbrev V0 : View sig .tc .vmem rS0.shape .f32 := (sM : Memref sig .tc .vmem S2x4x128 .f32).access rS0
abbrev V1 : View sig .tc .vmem rS1.shape .f32 := (sM : Memref sig .tc .vmem S2x4x128 .f32).access rS1

/-- What device `c`'s exchange buffer ends holding: row 0 its own partial row sums, row 1 its partner's. -/
def scr (c : Dev nD) : Buf (Elt F) ((c : Thread nD τ).loc cc0_scratch0) :=
  V1.write (Elt F) (V0.write (Elt F) (fun _ => Classical.arbitrary _) (rowS (xstg m ρ c)) Finset.univ) (rowS (xstg m ρ (nbr c))) Finset.univ

/-! ### The rows of the exchange buffer, as sets of its elements -/

theorem set_V0 : (V0 : View sig .tc .vmem rS0.shape .f32).set = rS0.set := View.set_slice_whole _ _
theorem set_V1 : (V1 : View sig .tc .vmem rS1.shape .f32).set = rS1.set := View.set_slice_whole _ _
theorem set_slot0 : (slot0M : Memref sig .tc .vmem S4x128 .f32).view.set = rS0.set :=
  (View.set_reshape _ _).trans (View.set_slice_whole _ _)
theorem set_slot1 : (slot1M : Memref sig .tc .vmem S4x128 .f32).view.set = rS1.set :=
  (View.set_reshape _ _).trans (View.set_slice_whole _ _)

/-- The two rows share no element; -/
theorem rows_disjoint : Disjoint rS0.set rS1.set := Rect.unit_disjoint (0 : Fin 3) (Or.inl (by decide))
/-- together they are the buffer. -/
theorem rows_cover : rS0.set ∪ rS1.set = (Finset.univ : Finset S2x4x128.Idx) := by
  ext i
  simp only [Finset.mem_union, Rect.mem_set_unit, Finset.mem_univ, iff_true]
  have h0 : (i 0).val < 2 := (i 0).isLt
  have h1 : (i 1).val < 4 := (i 1).isLt
  have h2 : (i 2).val < 128 := (i 2).isLt
  by_cases h : (i 0).val = 0
  · left; intro a
    match a with
    | ⟨0, _⟩ => exact ⟨Nat.zero_le _, by show (i 0).val < 0 + 1; omega⟩
    | ⟨1, _⟩ => exact ⟨Nat.zero_le _, by show (i 1).val < 0 + 4; omega⟩
    | ⟨2, _⟩ => exact ⟨Nat.zero_le _, by show (i 2).val < 0 + 128; omega⟩
  · right; intro a
    match a with
    | ⟨0, _⟩ => exact ⟨by show 1 ≤ (i 0).val; omega, by show (i 0).val < 1 + 1; omega⟩
    | ⟨1, _⟩ => exact ⟨Nat.zero_le _, by show (i 1).val < 0 + 4; omega⟩
    | ⟨2, _⟩ => exact ⟨Nat.zero_le _, by show (i 2).val < 0 + 128; omega⟩

/-! ### What the rows of `scr c` read -/

/-- Row 1 of `scr c` is the partner's partial row sums; -/
theorem read1_scr (c : Dev nD) : (V1 : View sig .tc .vmem rS1.shape .f32).read (Elt F) (scr m ρ c) = rowS (xstg m ρ (nbr c)) := by
  unfold scr; exact View.read_write_univ _ _
/-- row 0 the device's own: the write of row 1 does not touch it. -/
theorem disj_V0_V1 : Disjoint (V0 : View sig .tc .vmem rS0.shape .f32).set (V1 : View sig .tc .vmem rS1.shape .f32).set := by
  have h := rows_disjoint
  rw [← set_V0, ← set_V1] at h
  exact h
theorem read0_scr (c : Dev nD) : (V0 : View sig .tc .vmem rS0.shape .f32).read (Elt F) (scr m ρ c) = rowS (xstg m ρ c) :=
  (View.read_slice_write_slice_of_disjoint (v := (sM : Memref sig .tc .vmem S2x4x128 .f32).view) rS0 rS1 _ _ Finset.univ
    (by rw [View.setOn_univ]; exact disj_V0_V1)).trans (View.read_write_univ _ _)

/-! ## The buffers as assertions -/

/-- Row 1 of device `c`'s exchange buffer, whole, at contents `f`: where its partner's copy lands. -/
def slot1Pts (c : Dev nD) (f : Buf (Elt F) ((slot1M : Memref sig .tc .vmem S4x128 .f32).view.loc (c : Thread nD τ))) : sProp 𝕄 :=
  (slot1M : Memref sig .tc .vmem S4x128 .f32).view.loc (c : Thread nD τ) ↦[(slot1M : Memref sig .tc .vmem S4x128 .f32).view.set]{fullShare} f
/-- Row 0 of it at share `q`: the source of its own copy. -/
def slot0Pts (c : Dev nD) (q : PosShare TreeShare) (f : Buf (Elt F) ((slot0M : Memref sig .tc .vmem S4x128 .f32).view.loc (c : Thread nD τ))) : sProp 𝕄 :=
  (slot0M : Memref sig .tc .vmem S4x128 .f32).view.loc (c : Thread nD τ) ↦[(slot0M : Memref sig .tc .vmem S4x128 .f32).view.set]{q} f

instance slot1Pts_storable (c : Dev nD) (f) : BI.Storable (upEmb : UEmb _ 𝕄) (slot1Pts (F := F) c f) := by unfold slot1Pts; infer_instance
instance slot0Pts_storable (c : Dev nD) (q f) : BI.Storable (upEmb : UEmb _ 𝕄) (slot0Pts (F := F) c q f) := by unfold slot0Pts; infer_instance

/-! ## The schedule -/

/-- What the partner's entry signal hands `c`: the partner's landing row and that the partner's receive cell is at round 0. -/
def barPay (c : Dev nD) : sProp 𝕄 := iprop((∃ f, slot1Pts (nbr c) f) ∗ reached ER (recvCell (nbr c)) 0)
/-- What the landing of the partner's copy hands `c`: its landing row holding the partner's partial sums. -/
def recvPay (c : Dev nD) : sProp 𝕄 := slot1Pts c (scr m ρ c)
/-- What the departure of its own copy hands `c`: the read share of its own partial sums it lent the engine. -/
def sendPay (c : Dev nD) : sProp 𝕄 := slot0Pts c fullShare.right (scr m ρ c)

abbrev IsCell (g : GSem nD τ sig) : Prop := g.1.2 = .tc ∧ (g.2 = .reg barS ∨ g.2 = .dma sendS.sem ∨ g.2 = .dma recvS.sem)

/-- One round, round 0, one duty per cell: a barrier cell's of one unit, a send or receive cell's of the row's credit. -/
def sched : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m ρ).duties (barCell c) 0 = {()} := by dsimp only [sched]; exact if_pos ⟨rfl, rfl, .inl rfl⟩
theorem duties_send : (sched (F := F) m ρ).duties (sendCell c) 0 = {()} := by dsimp only [sched]; exact if_pos ⟨rfl, rfl, .inr (.inl rfl)⟩
theorem duties_recv : (sched (F := F) m ρ).duties (recvCell c) 0 = {()} := by dsimp only [sched]; exact if_pos ⟨rfl, rfl, .inr (.inr rfl)⟩
theorem duties_later (g : GSem nD τ sig) : ∀ r, 1 ≤ r → (sched (F := F) m ρ).duties g r = ∅ :=
  fun r hr => by dsimp only [sched]; rw [if_neg fun h => by omega]

theorem amount_bar (d : Unit) : (sched (F := F) m ρ).amount (barCell c) 0 d = 1 := by dsimp only [sched]; exact if_pos rfl
theorem amount_send (d : Unit) : (sched (F := F) m ρ).amount (sendCell c) 0 d = N := by dsimp only [sched]; exact if_neg send_ne_bar
theorem amount_recv (d : Unit) : (sched (F := F) m ρ).amount (recvCell c) 0 d = N := by dsimp only [sched]; exact if_neg recv_ne_bar

theorem expect_bar : (sched (F := F) m ρ).expect (barCell c) 0 = 1 := by
  unfold Schedule.expect Schedule.amountOf; rw [duties_bar, Finset.sum_singleton, amount_bar]
theorem expect_send : (sched (F := F) m ρ).expect (sendCell c) 0 = N := by
  unfold Schedule.expect Schedule.amountOf; rw [duties_send, Finset.sum_singleton, amount_send]
theorem expect_recv : (sched (F := F) m ρ).expect (recvCell c) 0 = N := by
  unfold Schedule.expect Schedule.amountOf; rw [duties_recv, Finset.sum_singleton, amount_recv]

theorem payload_bar (d : Unit) : (sched (F := F) m ρ).payload (barCell c) 0 d = barPay c := by dsimp only [sched]; rw [if_pos rfl]
theorem payload_send (d : Unit) : (sched (F := F) m ρ).payload (sendCell c) 0 d = sendPay m ρ c := by
  dsimp only [sched]; rw [if_neg send_ne_bar, if_neg send_ne_recv, if_pos rfl]
theorem payload_recv (d : Unit) : (sched (F := F) m ρ).payload (recvCell c) 0 d = recvPay m ρ c := by
  dsimp only [sched]; rw [if_neg recv_ne_bar, if_pos rfl]

theorem rest_bar : bigSep ((sched (F := F) m ρ).duties (barCell c) 0 \ ∅) (fun d => (sched (F := F) m ρ).payload (barCell c) 0 d) = barPay c := by
  rw [Finset.sdiff_empty, duties_bar, bigSep_singleton, payload_bar]
theorem rest_send : bigSep ((sched (F := F) m ρ).duties (sendCell c) 0 \ ∅) (fun d => (sched (F := F) m ρ).payload (sendCell c) 0 d) = sendPay m ρ c := by
  rw [Finset.sdiff_empty, duties_send, bigSep_singleton, payload_send]
theorem rest_recv : bigSep ((sched (F := F) m ρ).duties (recvCell c) 0 \ ∅) (fun d => (sched (F := F) m ρ).payload (recvCell c) 0 d) = recvPay m ρ c := by
  rw [Finset.sdiff_empty, duties_recv, bigSep_singleton, payload_recv]

end Sched

/-! ## What each core owes at launch; the levels -/

/-- Device `c` owes its partner's receive cell the row's credit and its partner's barrier cell one unit — summed so
    that the entry signal peels the last summand. -/
def O₀ (c : Dev nD) : CellTallies nD τ sig Unit := tallyAt (recvCell (nbr c)) () N + tallyAt (barCell (nbr c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (nbr c) ∨ g = barCell (nbr c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

/-- A staging wait (level 0) is below everything a device may still owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its barrier wait a device owes its partner's receive credit only: a receive cell, above its barrier cell. -/
theorem mayWait_bar (c : Dev nD) :
    (levAts L lv : sProp 𝕄) ⊢ MayWait (c : Thread nD τ) (.reg barS) () (tallyAt (recvCell (nbr c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (nbr c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (nbr c) ∧ u = ()
      · rw [h.1]; dsimp only [lv]; rw [if_neg recv_ne_bar, if_pos rfl]; decide
      · rw [if_neg h] at hg; exact absurd hg (Nat.lt_irrefl 0))

end Cert.KernelIdeal.Hand

end
-- ==== Proof.Body.lean ====
/- One thread's body of the row-mean kernel, run from the protocol's invariant: the entry signal to
   the partner, the partial row sums stored to row 0 of the exchange buffer, the wait for the
   partner's entry signal, the copy of row 0 into the partner's row 1, the wait for the partner's
   copy, the four stores of the scaled, transposed and added sums, the wait for the departure. -/
import proofs.«900962_g7700000000000963_dist_mean_ax1_xy_m512_n256_v7x_xy2x2_f32_1_alg».proof.Proof.Proto

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`, from its own block and its partner's. -/
def outAt (c : Dev nD) : (cc0_stg1_0 : Ref sig .tc).ty.Contents (Elt F) := outVal (rowS (xstg m ρ c)) (rowS (xstg m ρ (nbr c)))

/-- The cells' invariants device `c`'s body opens, under the names `K` the launch allocated them at: its own three,
    its partner's barrier cell (its signal) and receive cell (its copy). -/
def invs (K : Dev nD × Fin 3 → ℕ) (c : Dev nD) : sProp 𝕄 :=
  iprop(cellInv ER (sched m ρ) (K (c, 0)) (barCell c) ∗ cellInv ER (sched m ρ) (K (c, 1)) (sendCell c) ∗ cellInv ER (sched m ρ) (K (c, 2)) (recvCell c)
    ∗ cellInv ER (sched m ρ) (K (nbr c, 0)) (barCell (nbr c)) ∗ cellInv ER (sched m ρ) (K (nbr c, 2)) (recvCell (nbr c)))

instance invs_persistent (K : Dev nD × Fin 3 → ℕ) (c : Dev nD) : BI.Persistent (invs m ρ K c) := by unfold invs; infer_instance

/-- The protocol's ghost state device `c` starts from: the invariants; its positions at round 0 of its three cells; the
    reached-marks of the cells it pays and of its own send and receive cells; the three duty tokens it pays with. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (nbr c)) 0 ∗ reached ER (recvCell (nbr c)) 0 ∗ reached ER (sendCell c) 0 ∗ reached ER (recvCell c) 0
    ∗ dutyTok ER (barCell (nbr c)) 0 () ∗ dutyTok ER (recvCell (nbr c)) 0 () ∗ dutyTok ER (sendCell c) 0 ())

/-- What device `c`'s body starts from: that at some names, its two credit tokens (its barrier's unit, its receive
    cell's credit) and the level facts. -/
def start (c : Dev nD) : sProp 𝕄 :=
  iprop((∃ K, ghost m ρ K c) ∗ cred (tallyAt (barCell c) () 1) ∗ cred (tallyAt (recvCell c) () N) ∗ levAts L lv)

/-- The exchange buffer whole. -/
def scrPts (c : Dev nD) (f : Buf (Elt F) ((c : Thread nD τ).loc cc0_scratch0)) : sProp 𝕄 :=
  ((c : Thread nD τ).loc cc0_scratch0) ↦{fullShare} f

def Φ₀ (c : Dev nD) : sProp 𝕄 := iprop(start m ρ c ∗ ∃ f, scrPts c f)
/-- After the point: the exchange buffer whole again, the two OWN cells at zero, closed. -/
def Φ₁ (c : Dev nD) : sProp 𝕄 := iprop((∃ f, scrPts c f) ∗ semVal (sendCell c) 0 ∗ semVal (recvCell c) 0)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The exchange buffer by rows and by shares -/

/-- The buffer whole is its two rows. -/
theorem scr_split (c : Dev nD) (f : Buf (Elt F) ((c : Thread nD τ).loc cc0_scratch0)) :
    (scrPts c f : sProp 𝕄) ⊣⊢ iprop(slot0Pts c fullShare f ∗ slot1Pts c f) := by
  unfold scrPts slot0Pts slot1Pts
  rw [set_slot0, set_slot1]
  have h := pointsTo_union (ℓ := (c : Thread nD τ).loc cc0_scratch0) (q := fullShare) (f := f) (Val := Elt F)
    (Ix := Unit) (Name := ℕ) (U := UU) (Lvl := ℕ) rows_disjoint
  rw [rows_cover] at h
  exact h

/-- Row 0 at the full share is its two halves. -/
theorem slot0_halves (c : Dev nD) (f : Buf (Elt F) ((c : Thread nD τ).loc cc0_scratch0)) :
    (slot0Pts c fullShare f : sProp 𝕄) ⊣⊢ iprop(slot0Pts c fullShare.left f ∗ slot0Pts c fullShare.right f) := by
  unfold slot0Pts
  exact pointsTo_share (PosShare.mem_left_op_right _)

/-- A row's assertion depends on the contents only through what the row reads. -/
theorem slot0Pts_congr (c : Dev nD) (q : PosShare TreeShare) (f g : Buf (Elt F) ((c : Thread nD τ).loc cc0_scratch0))
    (h : (V0 : View sig .tc .vmem rS0.shape .f32).read (Elt F) f = (V0 : View sig .tc .vmem rS0.shape .f32).read (Elt F) g) :
    (slot0Pts c q f : sProp 𝕄) = slot0Pts c q g := by
  unfold slot0Pts
  refine BI.Region.is_congr fun i hi => ?_
  have hi' : i ∈ (V0 : View sig .tc .vmem rS0.shape .f32).set := by rw [set_V0, ← set_slot0]; exact hi
  obtain ⟨y, -, rfl⟩ := Finset.mem_map.mp hi'
  have hy := congrFun h y
  rw [View.read_apply, View.read_apply] at hy
  simpa only [cast_eq] using hy

theorem slot1Pts_congr (c : Dev nD) (f g : Buf (Elt F) ((c : Thread nD τ).loc cc0_scratch0))
    (h : (V1 : View sig .tc .vmem rS1.shape .f32).read (Elt F) f = (V1 : View sig .tc .vmem rS1.shape .f32).read (Elt F) g) :
    (slot1Pts c f : sProp 𝕄) = slot1Pts c g := by
  unfold slot1Pts
  refine BI.Region.is_congr fun i hi => ?_
  have hi' : i ∈ (V1 : View sig .tc .vmem rS1.shape .f32).set := by rw [set_V1, ← set_slot1]; exact hi
  obtain ⟨y, -, rfl⟩ := Finset.mem_map.mp hi'
  have hy := congrFun h y
  rw [View.read_apply, View.read_apply] at hy
  simpa only [cast_eq] using hy

/-! ## The result's staging buffer after the four stores -/

/-- The four bands stored over anything are the result block. -/
theorem out_eq (c : Dev nD) (S R : Vec F S1x4x128 .f32) (g1 : Buf (Elt F) ((c : Thread nD τ).loc cc0_stg1_0)) :
    (oM : Memref sig .tc .vmem S512x1 .f32).view.writes (Elt F) g1
      [⟨rO384, k0_pay6 S R⟩, ⟨rO256, k0_pay5 S R⟩, ⟨rO128, k0_pay4 S R⟩, ⟨rO0, k0_pay3 S R⟩] = outVal S R := by
  have h := View.read_writes_eq_canon (Val := Elt F) (oM : Memref sig .tc .vmem S512x1 .f32).view g1
    [⟨rO384, k0_pay6 S R⟩, ⟨rO256, k0_pay5 S R⟩, ⟨rO128, k0_pay4 S R⟩, ⟨rO0, k0_pay3 S R⟩] (cover_out _ _ _ _)
  unfold outVal
  exact h

/-! ## What the copy lands -/

/-- What device `c`'s copy writes into its partner's row 1 — row 0 of `scr c`, whatever the partner's buffer held —
    reads, through that row, as row 1 of `scr (nbr c)` does: the device's own partial row sums. -/
theorem landing_read (c : Dev nD) (fn : Buf (Elt F) ((nbr c : Thread nD τ).loc cc0_scratch0)) :
    (V1 : View sig .tc .vmem rS1.shape .f32).read (Elt F)
        ((slot1M : Memref sig .tc .vmem S4x128 .f32).view.write (Elt F) fn ((slot0M : Memref sig .tc .vmem S4x128 .f32).view.read (Elt F) (scr m ρ c)) Finset.univ)
      = (V1 : View sig .tc .vmem rS1.shape .f32).read (Elt F) (scr m ρ (nbr c)) := by
  rw [read1_scr, nbr_nbr, ← read0_scr m ρ c]
  funext y
  obtain ⟨x, rfl⟩ := (Shape.reshapeEquiv (squeezes_S1x4x128_S4x128).numel_eq).surjective y
  show (slot1M : Memref sig .tc .vmem S4x128 .f32).view.read (Elt F)
      ((slot1M : Memref sig .tc .vmem S4x128 .f32).view.write (Elt F) fn ((slot0M : Memref sig .tc .vmem S4x128 .f32).view.read (Elt F) (scr m ρ c)) Finset.univ) x = _
  rw [View.read_write_univ]
  rfl

/-! ## The body -/

/-- The staging buffers of the input block and of the result, whole. -/
def xPts (c : Dev nD) (f : Buf (Elt F) ((c : Thread nD τ).loc cc0_stg0_0)) : sProp 𝕄 :=
  (xM : Memref sig .tc .vmem S512x256 .f32).view.loc (c : Thread nD τ) ↦[(xM : Memref sig .tc .vmem S512x256 .f32).view.set]{fullShare} f
def oPts (c : Dev nD) (f : Buf (Elt F) ((c : Thread nD τ).loc cc0_stg1_0)) : sProp 𝕄 :=
  (oM : Memref sig .tc .vmem S512x1 .f32).view.loc (c : Thread nD τ) ↦[(oM : Memref sig .tc .vmem S512x1 .f32).view.set]{fullShare} f
theorem xPts_eq (c : Dev nD) (f) : xPts c f = (((c : Thread nD τ).loc cc0_stg0_0) ↦{fullShare} f : sProp 𝕄) := by
  unfold xPts; rw [View.set_whole]
theorem oPts_eq (c : Dev nD) (f) : oPts c f = (((c : Thread nD τ).loc cc0_stg1_0) ↦{fullShare} f : sProp 𝕄) := by
  unfold oPts; rw [View.set_whole]

section Body

variable (K : Dev nD × Fin 3 → ℕ)

/-- What one thread's body runs from: the protocol's ghost state, its launch credit, the levels, the exchange
    buffer at anything, what it owes, its input block staged and its result's staging buffer at anything. -/
def bodyInv (c : Dev nD) (W : Waits sig Unit) (g1 : Buf (Elt F) ((c : Thread nD τ).loc cc0_stg1_0)) : sProp 𝕄 :=
  iprop(ghost m ρ K c ∗ cred (tallyAt (barCell c) () 1) ∗ cred (tallyAt (recvCell c) () N) ∗ levAts L lv
    ∗ (∃ f, scrPts c f) ∗ owes (c : Thread nD τ) (O₀ c) W
    ∗ xPts c (xstg m ρ c) ∗ oPts c g1)

/-- What it ends in: the exchange buffer whole, its two own cells closed at zero, nothing owed, the input block
    staged as before and the result's staging buffer at the result. -/
def bodyEnd (c : Dev nD) : sProp 𝕄 :=
  iprop(Φ₁ c ∗ (∃ W', owes (c : Thread nD τ) 0 W')
    ∗ xPts c (xstg m ρ c) ∗ oPts c (outAt m ρ c))

theorem payload_bar_pts (c : Dev nD) (d : Unit) : (sched (F := F) m ρ).payload (barCell c) 0 d
    = iprop((∃ f, ((slot1M : Memref sig .tc .vmem S4x128 .f32).view.loc (nbr c : Thread nD τ) ↦[(slot1M : Memref sig .tc .vmem S4x128 .f32).view.set]{fullShare} f))
        ∗ reached ER (recvCell (nbr c)) 0) := by rw [payload_bar]; rfl
theorem payload_send_pts (c : Dev nD) (d : Unit) : (sched (F := F) m ρ).payload (sendCell c) 0 d
    = ((slot0M : Memref sig .tc .vmem S4x128 .f32).view.loc (c : Thread nD τ) ↦[(slot0M : Memref sig .tc .vmem S4x128 .f32).view.set]{fullShare.right} scr m ρ c) := by
  rw [payload_send]; rfl
theorem payload_recv_pts (c : Dev nD) (d : Unit) : (sched (F := F) m ρ).payload (recvCell c) 0 d
    = ((slot1M : Memref sig .tc .vmem S4x128 .f32).view.loc (c : Thread nD τ) ↦[(slot1M : Memref sig .tc .vmem S4x128 .f32).view.set]{fullShare} scr m ρ c) := by
  rw [payload_recv]; rfl

theorem payload_barN_pts (c : Dev nD) (d : Unit) : (sched (F := F) m ρ).payload (barCell (nbr c)) 0 d
    = iprop((∃ f, ((slot1M : Memref sig .tc .vmem S4x128 .f32).view.loc (c : Thread nD τ) ↦[(slot1M : Memref sig .tc .vmem S4x128 .f32).view.set]{fullShare} f))
        ∗ reached ER (recvCell c) 0) := by rw [payload_bar_pts, nbr_nbr]

/-- The copy of row 0 into the partner's row 1, by the rounds library's rule for an addressed transfer whose
    destination the issuer holds: the read share of row 0 goes to the send cell's duty, the partner's row 1,
    rewritten, to the partner's receive cell's duty. The transfer is addressed to `n = nbr c`. -/
theorem wp_send_row (c n : Dev nD) (hn : n = nbr c) {hsc : (slot1M : Memref sig (Dev.tc n : Thread nD τ).2.kind .vmem S4x128 .f32).view.ref.isScScratch = false}
    {hsrc : (slot0M : Memref sig .tc .vmem S4x128 .f32).view.WordExact} {hdst : (slot1M : Memref sig .tc .vmem S4x128 .f32).view.WordExact}
    {hsem : DmaTarget.Typed .vmem (.dma recvS.sem) (.remote (Dev.tc n : Thread nD τ) (slot1M : Memref sig .tc .vmem S4x128 .f32) (.dma sendS.sem) hsc)}
    {α : Type} {Q : α → sProp 𝕄} {k : PUnit → Prog (TpuEff nD τ sig (Elt F) Λ₀ .tc) α}
    (fn : Buf (Elt F) ((slot1M : Memref sig .tc .vmem S4x128 .f32).view.loc (nbr c : Thread nD τ))) (W : Waits sig Unit) :
    iprop(cellInv ER (sched m ρ) (K (c, 1)) (sendCell c) ∗ cellInv ER (sched m ρ) (K (nbr c, 2)) (recvCell (nbr c))
        ∗ slot0Pts c fullShare.right (scr m ρ c) ∗ slot1Pts (nbr c) fn
        ∗ owes (c : Thread nD τ) (tallyAt (recvCell (nbr c)) () N) W
        ∗ dutyTok ER (sendCell c) 0 () ∗ reached ER (sendCell c) 0
        ∗ dutyTok ER (recvCell (nbr c)) 0 () ∗ reached ER (recvCell (nbr c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0M (.remote (Dev.tc n : Thread nD τ) slot1M (.dma sendS.sem) hsc) (.dma recvS.sem) hsrc hdst hsem) k) Q) := by
  subst hn
  unfold slot0Pts slot1Pts
  exact Rounds.wp_send_pointsTo 𝒱₀ ER (sched m ρ) (c : Thread nD τ) none (κ₁ := K (c, 1)) (κ₂ := K (nbr c, 2))
    (r₁ := 0) (r₂ := 0) (d₁ := ()) (d₂ := ()) (fd := fn)
    (by rw [duties_send]; exact Finset.mem_singleton_self _) (by rw [duties_recv]; exact Finset.mem_singleton_self _)
    () () N rfl (amount_send m ρ c ()) (amount_recv m ρ (nbr c) ()) 0 (by rw [zero_add]) (W := W)
    (by rw [payload_send_pts] <;> first | done | exact BI.Entails.refl _)
    (by
      rw [payload_recv]; unfold recvPay
      have h := slot1Pts_congr (F := F) (nbr c) _ _ (landing_read m ρ c fn)
      unfold slot1Pts at h ⊢
      rw [h] <;> first | done | exact BI.Entails.refl _)

attribute [local sl_rounds] payload_barN_pts duties_bar duties_send duties_recv amount_bar amount_send amount_recv
  payload_send_pts payload_recv_pts expect_bar expect_send expect_recv
attribute [local sl_canon] dev1_eq dev2_eq

set_option maxHeartbeats 1600000 in
theorem sound_body (c : Dev nD) (W : Waits sig Unit) (g1 : Buf (Elt F) ((c : Thread nD τ).loc cc0_stg1_0)) (Kt : PUnit → sProp 𝕄) :
    iprop(bodyInv m ρ K c W g1 ∗ (bodyEnd m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  unfold bodyInv ghost invs
  iintro ⟨⟨⟨⟨#HIbar, #HIsnd, #HIrcv, #HIbarN, #HIrcvN⟩, HatB, HatS, HatV, #HrBN, #HrVN, #HrS, #HrV, HtBN, HtVN, HtS⟩,
    HcB, HcV, #Hlev, ⟨%f0, Hscr⟩, HO, Hx, Hout⟩, Hk⟩
  unfold O₀
  have hsplit := (scr_split (F := F) c f0).1
  ihave Hs := hsplit $$ Hscr
  icases Hs with ⟨Hs0, Hs1⟩
  irevert Hs0
  iintro Hs0
  unfold slot0Pts slot1Pts xPts oPts
  have hmw := mayWait_bar (F := F) c
  sl_exec
  -- the partner's entry signal has handed over the partner's landing row
  ihave Hp := (Entails.of_eq (payload_bar_pts m ρ c ())) $$ HatB_pay1
  icases Hp with ⟨⟨%fn, HscrN⟩, #HrVN'⟩
  -- row 0 now holds the device's own partial row sums: restated at the buffer's final contents, and halved
  have hz2 : (![0, 0] : Fin 2 → Nat) = fun _ => 0 := funext fun a => by fin_cases a <;> rfl
  have hw : (V0 : View sig .tc .vmem rS0.shape .f32).read (Elt F) (sound_body.sl.Hs0_w1 m ρ c f0)
      = (V0 : View sig .tc .vmem rS0.shape .f32).read (Elt F) (scr m ρ c) := by
    unfold sound_body.sl.Hs0_w1
    rw [read0_scr]
    refine (View.read_write_univ _ _).trans ?_
    unfold rowS
    exact congrArg k0_pay1 (Memref.readAt_unit_zero (Elt F) cc0_stg0_0 hz2 _ _)
  have hcg := Entails.of_eq (slot0Pts_congr (F := F) c fullShare _ _ hw)
  have hhalf := (slot0_halves (F := F) c (scr m ρ c)).1
  unfold slot0Pts at hcg hhalf
  ihave Hs0' := hcg $$ Hs0
  ihave Hh := hhalf $$ Hs0'
  icases Hh with ⟨Hs0L, Hs0R⟩
  -- the copy into the partner's row 1
  iapply (wp_send_row m ρ K c _ (dev2_eq c) fn _) $$ [Hs0R HscrN HO HtS HtVN]
  · unfold slot0Pts slot1Pts
    isplitr; · iexact HIsnd
    isplitr; · iexact HIrcvN
    isplitl [Hs0R]; · iexact Hs0R
    isplitl [HscrN]; · iexact HscrN
    isplitl [HO]; · iexact HO
    isplitl [HtS]; · iexact HtS
    isplitr; · iexact HrS
    isplitl [HtVN]; · iexact HtVN
    iexact HrVN
  iintro ⟨HcS, HO⟩
  sl_exec
  -- the two own cells close: no later round has a duty
  imod (Rounds.cell_close ER (sched m ρ) (κ := K (c, 1)) (g := sendCell c) (Set.mem_univ _) (fun h => h) (R := 1) (duties_later m ρ (sendCell c))) $$ [HatS] with HzS
  · isplitr; · iexact HIsnd
    iexact HatS
  imod (Rounds.cell_close ER (sched m ρ) (κ := K (c, 2)) (g := recvCell c) (Set.mem_univ _) (fun h => h) (R := 1) (duties_later m ρ (recvCell c))) $$ [HatV] with HzV
  · isplitr; · iexact HIrcv
    iexact HatV
  -- the exchange buffer whole again: row 0's two halves, then the two rows
  have hjoinS := (slot0_halves (F := F) c (scr m ρ c)).2
  have hjoin := (scr_split (F := F) c (scr m ρ c)).2
  unfold slot0Pts at hjoinS
  unfold slot0Pts slot1Pts at hjoin
  ihave Hs0 := hjoinS $$ [Hs0L HatS_pay1]
  · isplitl [Hs0L] <;> iassumption
  ihave Hscr := hjoin $$ [Hs0 HatV_pay1]
  · isplitl [Hs0] <;> iassumption
  -- the result's staging buffer holds the result block
  have hS : View.readAt (Elt F) (sM : Memref sig .tc .vmem S2x4x128 .f32).view rS0.toLoadRect (scr m ρ c) = rowS (xstg m ρ c) := read0_scr m ρ c
  have e := (out_eq (F := F) c (View.readAt (Elt F) (sM : Memref sig .tc .vmem S2x4x128 .f32).view rS0.toLoadRect (scr m ρ c)) (rowS (xstg m ρ (nbr c))) g1).trans
    (congrArg (fun S => outVal S (rowS (xstg m ρ (nbr c)))) hS)
  have eo := Entails.of_eq (congrArg (fun f => ((oM : Memref sig .tc .vmem S512x1 .f32).view.loc (c : Thread nD τ) ↦[(oM : Memref sig .tc .vmem S512x1 .f32).view.set]{fullShare} f : sProp 𝕄)) e)
  ihave Hout' := eo $$ Hout
  sl_step
  iapply Hk
  unfold bodyEnd Φ₁ xPts oPts outAt
  isplitl [Hscr HzS HzV]
  · isplitl [Hscr]; · iexists _; iexact Hscr
    isplitl [HzS] <;> iassumption
  isplitl [HO]; · iexists _; iexact HO
  isplitl [Hx]; · iexact Hx
  iexact Hout'

end Body

/-! ## The library's body obligation -/

section Obligation

set_option maxRecDepth 4000 in
/-- What the launch theorem hands one thread's body at the one grid point. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it expects back. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start Dat.owesAt Pipeline.owesWithin
  rw [show (dats m ρ 0 c).owed t₀.castSucc = O₀ c from rfl]
  iintro ⟨⟨⟨⟨%K, Hg⟩, HcB, HcV, Hlev⟩, Hscr⟩, ⟨%W, %hW, HO⟩, ⟨%d0, %g0, %hg0, Hx⟩, ⟨%d1, %g1, %hg1, Hout⟩⟩
  have hx : g0 = xstg m ρ c := by rw [hg0]; unfold Dat.before; rw [if_pos (fetch_0 t₀)]; rfl
  subst hx
  iapply (sound_body m ρ K c W g1 fun _ => bodyPost m ρ c)
  unfold bodyInv
  isplitr []
  · isplitl [Hg]; · iexact Hg
    isplitl [HcB]; · iexact HcB
    isplitl [HcV]; · iexact HcV
    isplitl [Hlev]; · iexact Hlev
    isplitl [Hscr]; · iexact Hscr
    isplitl [HO]; · iexact HO
    isplitl [Hx]; · rw [xPts_eq]; iexact Hx
    rw [oPts_eq]; iexact Hout
  · unfold bodyEnd bodyPost Dat.owesAt Pipeline.owesWithin
    rw [show (dats m ρ 0 c).owed t₀.succ = 0 from rfl]
    rw [xPts_eq, oPts_eq]
    iintro ⟨HΦ, ⟨%W', HO⟩, Hx, Hout⟩
    isplitl [HΦ]; · iexact HΦ
    isplitl [HO]
    · iexists W'
      isplitr; · ipureintro; exact fun _ _ => Or.inl trivial
      iexact HO
    isplitl [Hx]
    · iexists _; isplitr; · (ipureintro; rfl)
      iexact Hx
    iexists _; isplitr; · (ipureintro; rfl)
    iexact Hout

end Obligation

end Cert.KernelIdeal.Hand

end
-- ==== Proof.Launch.lean ====
/- The launch of the row-mean kernel on the 2 × 2 mesh. Every device's three cells (its barrier cell, its send
   cell, its receive cell) are funded at round 0 with one duty token each; the tokens of the barrier and receive
   cells travel to the partner, who pays those duties; each device keeps its own send token. The cells'
   invariants are allocated for all devices under one update, because a barrier or receive cell is opened by
   two devices. At launch device `c` is owed one unit on its barrier cell and the row's credit on its receive
   cell, both by its partner. From the body's obligation the launch theorem gives the run of the whole program;
   the input array ends as it began, and the result array ends holding the result block computed from the
   device's own block and its partner's. -/
import proofs.«900962_g7700000000000963_dist_mean_ax1_xy_m512_n256_v7x_xy2x2_f32_1_alg».proof.Proof.Body
import proofs.«900962_g7700000000000963_dist_mean_ax1_xy_m512_n256_v7x_xy2x2_f32_1_alg».proof.Proof.Gen.KernelIdeal.Points
import Idealize.ShloMosaic.Lib.Pipeline.Launch
import Idealize.ShloMosaic.Lib.Pipeline.Kit
import Idealize.ShloMosaic.Lib.Pipeline.Cells
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- All twelve cells of the protocol. -/
def pairCells : Finset (GSem nD τ sig) := Finset.univ.map ⟨kcell, kcell_injective⟩

/-- The one duty token of each cell, as minted: the cell, round 0, the duty. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg (fun x : GSem nD τ sig × ℕ × Unit => x.1) h)
def pairToks : Finset (GSem nD τ sig × ℕ × Unit) := Finset.univ.map ⟨tokOf, tokOf_injective⟩

def u₀ : UU :=
  (initOf (Pipeline.cells cfgs cellOf_inj) (Pipeline.launchToks cfgs cellOf_inj), initOf pairCells pairToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (sched m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_pair : BI.own (ER (initOf pairCells pairToks)) ⊢ (|==> bigSep Finset.univ (G m ρ) : sProp 𝕄) := by
  have hX (Φ : GSem nD τ sig → sProp 𝕄) : bigSep pairCells Φ = bigSep Finset.univ fun c : Dev nD => bigSep Finset.univ fun k : Fin 3 => Φ (kcell (c, k)) := by
    unfold pairCells; rw [bigSep_map, bigSep_univ_prod]; rfl
  have hT : bigSep pairToks (fun x => (dutyTok ER x.1 x.2.1 x.2.2 : sProp 𝕄)) = bigSep Finset.univ fun c : Dev nD => toks c := by
    unfold pairToks; rw [bigSep_map, bigSep_univ_prod]
    exact bigSep_congr fun c _ => by unfold toks; rw [bigSep_fin3]; rfl
  iintro HX
  imod (Rounds.fund ER (sched m ρ) pairCells pairToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant, under the names the allocation chose, and every cell at round 0: persistent. -/
def records (K : Dev nD × Fin 3 → ℕ) : sProp 𝕄 :=
  iprop((bigSep Finset.univ fun ck : Dev nD × Fin 3 => cellInv ER (sched m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (sched m ρ) (K ck) (kcell ck) : sProp 𝕄)) ⊢ cellInv ER (sched m ρ) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays — its partner's barrier and
    receive duties, and its own send duty. -/
def payToks (c : Dev nD) : sProp 𝕄 :=
  iprop(dutyTok ER (barCell (nbr c)) 0 () ∗ dutyTok ER (recvCell (nbr c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBN, HtVN, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (nbr c, 0)); iexact HI
    iapply (inv_at m ρ K (nbr c, 2)); iexact HI
  isplitl [HaB]; · iexact HaB
  isplitl [HaS]; · iexact HaS
  isplitl [HaV]; · iexact HaV
  isplitr; · iapply (reached_at (F := F) (nbr c, 0)); iexact HR
  isplitr; · iapply (reached_at (F := F) (nbr c, 2)); iexact HR
  isplitr; · iapply (reached_at (F := F) (c, 1)); iexact HR
  isplitr; · iapply (reached_at (F := F) (c, 2)); iexact HR
  isplitl [HtBN]; · iexact HtBN
  isplitl [HtVN]; · iexact HtVN
  iexact HtS

/-- The tokens dealt between partners: a barrier cell's token and a receive cell's token go to the partner, the
    partner map being an involution of the mesh; a send cell's token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pair (fun c : Dev nD => (dutyTok ER (barCell c) 0 () : sProp 𝕄)),
    bigSep_univ_equiv pair (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (sched m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- Device `d` owes the barrier cell and the receive cell of its partner, and the partner map is its own inverse:
    so device `c` is dealt one unit of credit on its barrier cell and the row's credit on its receive cell. -/
theorem creds (c : Dev nD) :
    (Pipeline.launchCred O₀ c : sProp 𝕄) ⊢ iprop(cred (tallyAt (barCell c) () 1) ∗ cred (tallyAt (recvCell c) () N)) := by
  have h : (Pipeline.launchCred O₀ c : sProp 𝕄)
      = iprop(Pipeline.launchCred (fun d : Dev nD => (tallyAt (recvCell (nbr d)) () N : CellTallies nD τ sig Unit)) c
          ∗ Pipeline.launchCred (fun d : Dev nD => (tallyAt (barCell (nbr d)) () 1 : CellTallies nD τ sig Unit)) c) :=
    Pipeline.launchCred_add (fun d : Dev nD => (tallyAt (recvCell (nbr d)) () N : CellTallies nD τ sig Unit))
      (fun d : Dev nD => (tallyAt (barCell (nbr d)) () 1 : CellTallies nD τ sig Unit)) c
  rw [h]
  iintro ⟨HV, HB⟩
  isplitl [HB]
  · iapply (Pipeline.launchCred_tallyAt (.reg barS) nbr nbr nbr_nbr nbr_nbr () 1 c); iexact HB
  · iapply (Pipeline.launchCred_tallyAt (.dma recvS.sem) nbr nbr nbr_nbr nbr_nbr () N c); iexact HV

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scrPts
  iintro ⟨⟨%f, Hr⟩, HzS, HzV⟩
  isplitr; · iempintro
  isplitl [HzS HzV]
  · isplitl [HzS] <;> iassumption
  iexists f; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main terminates, and every final state has each device's arrays at the contents the proof data
    names after the one grid point. -/
theorem run_main : θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_pair m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (st0 m ρ).mem (win0_0.arr.view.loc (c : Thread nD τ)) :=
  (dats (F := F) m ρ 0 c).arrAt_in (0 : Fin 2) rfl _

/-- The result window's block is the whole result array: reading any contents through it gives the contents. -/
theorem read_blk1 (f : (main_v1 : Ref sig .tc).ty.Contents (Elt F)) :
    ((cfg0.win (1 : Fin 2)).blk t₀).view.read (Elt F) f = f :=
  Memref.read_access_unit_zero (Elt F) main_v1 (funext fun a => Nat.zero_mul _) _ f

/-- The result array after the run holds the result block: the one grid point writes the whole array back from the
    staging buffer, which the body left at the result. -/
theorem finalA_out (c : Dev nD) : finalA m ρ c (1 : Fin 2) = outAt m ρ c := by
  have h := (dats (F := F) m ρ 0 c).arrAt_succ (1 : Fin 2) t₀
  rw [if_pos (flush0_1 t₀)] at h
  show (dats (F := F) m ρ 0 c).arrAt (1 : Fin 2) (t₀.val + 1) = outAt m ρ c
  rw [h]
  exact (read_blk1 _).symm.trans (View.read_write_univ _ _)

/-- The input window's block is the whole input array: what the staging buffer holds of it is the array. -/
theorem xstg_eq (c : Dev nD) : xstg m ρ c = m ((c : Thread nD τ).loc main_arg0) :=
  Memref.read_access_unit_zero (Elt F) main_arg0 (funext fun a => Nat.zero_mul _) _ _

/-- THE KERNEL'S RUN: from any memory with zero counters every weakly fair execution of @main on the four devices
    terminates; each device's result array ends holding the result block computed from its own input block and
    its partner's, and its input array ends unchanged. -/
theorem kernel_run :
    θ_run (defs (F := F)) (onTc (τ := τ) (main (F := F))) ⟨m, fun _ => 0, ρ⟩ (fun r => ∀ c : Dev nD,
      r.2.mem ((c.tc : Thread nD τ).loc main_v1) = outVal (rowS (m ((c.tc : Thread nD τ).loc main_arg0))) (rowS (m (((nbr c).tc : Thread nD τ).loc main_arg0)))
      ∧ r.2.mem ((c.tc : Thread nD τ).loc main_arg0) = m ((c.tc : Thread nD τ).loc main_arg0)) :=
  (θ_run _ _ _).mono (fun r h c => ⟨by
      have h1 := (h c (1 : Fin 2)).trans (finalA_out m ρ c)
      unfold outAt at h1
      rw [xstg_eq, xstg_eq] at h1
      exact h1,
    (h c (0 : Fin 2)).trans (finalA_x m ρ c)⟩) (run_main m ρ)

/-- info: 'Cert.KernelIdeal.Hand.run_main' depends on axioms: [propext, Classical.choice, Quot.sound] -/
#guard_msgs in #print axioms run_main
/-- info: 'Cert.KernelIdeal.Hand.finalA_x' depends on axioms: [propext, Classical.choice, Quot.sound] -/
#guard_msgs in #print axioms finalA_x
/-- info: 'Cert.KernelIdeal.Hand.finalA_out' depends on axioms: [propext, Classical.choice, Quot.sound] -/
#guard_msgs in #print axioms finalA_out
/-- info: 'Cert.KernelIdeal.Hand.xstg_eq' depends on axioms: [propext, Classical.choice, Quot.sound] -/
#guard_msgs in #print axioms xstg_eq
/-- info: 'Cert.KernelIdeal.Hand.kernel_run' depends on axioms: [propext, Classical.choice, Quot.sound] -/
#guard_msgs in #print axioms kernel_run

end Cert.KernelIdeal.Hand

end
-- ==== Proof.KSpec.lean ====
/- The vocabulary shared by the run of the kernel and by its value: which device is a device's
   partner, where the four stores of the result land, and the result as a pure function of the
   two devices' blocks. -/
import proofs.«900962_g7700000000000963_dist_mean_ax1_xy_m512_n256_v7x_xy2x2_f32_1_alg».proof.Proof.Gen.Kernel.Skeleton
import Idealize.ShloMosaic.Lib.Pipeline.FrameBody

noncomputable section

namespace Cert.Kernel.Hand

open Cert.Kernel Cert.Kernel.Gen
open Idealize.ShloMosaic

variable {F : FTy → Type} [FloatOps F]

/-- The partner of device `c`: the device in the same mesh row (same coordinate on axis 0) at the
    other coordinate on axis 1. Devices are numbered row-major, so it is `c` with its last bit flipped. -/
def nbr (c : Dev nD) : Dev nD := ⟨(2 * (c.val / 2) + 1) - (c.val % 2), by have h : c.val < 4 := c.isLt; show _ < 4; omega⟩

theorem nbr_nbr (c : Dev nD) : nbr (nbr c) = c := by revert c; decide
theorem nbr_ne (c : Dev nD) : nbr c ≠ c := by revert c; decide

/-- The four row bands of the result block: rows [128 i, 128 i + 128), the one column. -/
abbrev rO0 : Rect S512x1 := Rect.unit (s := S512x1) ![0, 0] S128x1.size inb_S512x1_S128x1_0_0
abbrev rO128 : Rect S512x1 := Rect.unit (s := S512x1) ![128, 0] S128x1.size inb_S512x1_S128x1_128_0
abbrev rO256 : Rect S512x1 := Rect.unit (s := S512x1) ![256, 0] S128x1.size inb_S512x1_S128x1_256_0
abbrev rO384 : Rect S512x1 := Rect.unit (s := S512x1) ![384, 0] S128x1.size inb_S512x1_S128x1_384_0

/-- A device's partial row sums: its block's 512 rows summed over its 256 columns, laid out 4 × 128. -/
def rowS (X : Vec F S512x256 .f32) : Vec F S1x4x128 .f32 := k0_pay1 X

/-- The result block from the device's own partial row sums `S` and its partner's `R`: band `i` of the
    rows holds column `i` of the transposed, scaled and added sums (the last store first). -/
def outVal (S R : Vec F S1x4x128 .f32) : Vec F S512x1 .f32 :=
  View.canon [⟨rO384, k0_pay6 S R⟩, ⟨rO256, k0_pay5 S R⟩, ⟨rO128, k0_pay4 S R⟩, ⟨rO0, k0_pay3 S R⟩]

/-- The four bands tile the result block. -/
theorem cover_out (p0 p1 p2 p3 : Vec F S128x1 .f32) (y : S512x1.Idx) :
    ∃ pc ∈ ([⟨rO384, p3⟩, ⟨rO256, p2⟩, ⟨rO128, p1⟩, ⟨rO0, p0⟩] : List (View.Piece (Elt F) S512x1 .f32)), y ∈ pc.1.set :=
  View.cover_of_tiled [⟨rO384, p3⟩, ⟨rO256, p2⟩, ⟨rO128, p1⟩, ⟨rO0, p0⟩] S128x1.size (by rfl) y

end Cert.Kernel.Hand

end
-- ==== Proof.KProto.lean ====
/- The cross-device protocol of the row-mean kernel on the 2 × 2 mesh, as a schedule of the rounds
   discipline. Each device has three cells. Its barrier cell has one duty, paid by its partner's
   entry signal: the partner hands over row 1 of its own exchange buffer (where this device's
   partial sums will land) and the fact that its receive cell stands at round 0. Its send cell has
   one duty, paid when the engine has read row 0 of the exchange buffer: a read share of that row
   comes back. Its receive cell has one duty, paid when the partner's copy has landed: row 1 of the
   exchange buffer comes back holding the partner's partial sums. The contents are named from the
   start: the exchange buffer of device `c` ends holding `scr c`, row 0 the device's own partial
   row sums and row 1 its partner's. -/
import proofs.«900962_g7700000000000963_dist_mean_ax1_xy_m512_n256_v7x_xy2x2_f32_1_alg».proof.Proof.KSpec
import proofs.«900962_g7700000000000963_dist_mean_ax1_xy_m512_n256_v7x_xy2x2_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (one duty per round: `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def st0 : MemSt nD τ sig (Elt F) := ⟨m, fun _ => 0, ρ⟩

/-! ## The partner -/

/-- Both device chains of the body (the entry signal's and the copy's) name the partner. -/
theorem dev1_eq (c : Dev nD) : (⟨k0_dev1 c, k0_dev1_lt c⟩ : Dev nD) = nbr c := Fin.ext (k0_dev1_eq c)
theorem dev2_eq (c : Dev nD) : (⟨k0_dev2 c, k0_dev2_lt c⟩ : Dev nD) = nbr c := Fin.ext (k0_dev2_eq c)

/-- The partner map is an involution of the mesh. -/
def pair : Dev nD ≃ Dev nD := ⟨nbr, nbr, nbr_nbr, nbr_nbr⟩

/-! ## The memrefs and cells -/

abbrev xM : Memref sig .tc .vmem S512x256 .f32 := Memref.whole cc0_stg0_0
abbrev oM : Memref sig .tc .vmem S512x1 .f32 := Memref.whole cc0_stg1_0
abbrev sM : Memref sig .tc .vmem S2x4x128 .f32 := Memref.whole cc0_scratch0

/-- Rows 0 and 1 of the exchange buffer. -/
abbrev rS0 : Rect S2x4x128 := Rect.unit (s := S2x4x128) ![0, 0, 0] S1x4x128.size inb_S2x4x128_S1x4x128_0_0_0
abbrev rS1 : Rect S2x4x128 := Rect.unit (s := S2x4x128) ![1, 0, 0] S1x4x128.size inb_S2x4x128_S1x4x128_1_0_0
/-- The same rows as the copy names them: sliced, the unit axis dropped. -/
abbrev slot0M : Memref sig .tc .vmem S4x128 .f32 := (sM.slice rS0 (fun _ => rfl)).squeeze S4x128 squeezes_S1x4x128_S4x128
abbrev slot1M : Memref sig .tc .vmem S4x128 .f32 := (sM.slice rS1 (fun _ => rfl)).squeeze S4x128 squeezes_S1x4x128_S4x128

/-- The runtime's barrier semaphore of collective id 0 (unscoped), the send and receive DMA semaphores (scoped scratch). -/
abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's OWN (scoped) semaphores, as the launch theorem indexes them: send, receive; -/
abbrev osem : Fin 2 → SemLoc sig := fun | 0 => .dma sendS.sem | 1 => .dma recvS.sem
/-- all three of the protocol's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit one row's copy pays. -/
abbrev N : ℕ := 128
theorem N_def : N = (slot1M : Memref sig .tc .vmem S4x128 .f32).view.dmaCredit := by rfl
theorem N_pos : 0 < N := by decide

/-! ## Contents -/

/-- Device `c`'s block of the input as its staging buffer holds it. -/
def xstg (c : Dev nD) : (cc0_stg0_0 : Ref sig .tc).ty.Contents (Elt F) :=
  (win0_0.blk (0 : Fin 1)).view.read (Elt F) ((st0 m ρ).mem ((c : Thread nD τ).loc main_arg0))

/-- The two rows of the exchange buffer as views of it. -/
abbrev V0 : View sig .tc .vmem rS0.shape .f32 := (sM : Memref sig .tc .vmem S2x4x128 .f32).access rS0
abbrev V1 : View sig .tc .vmem rS1.shape .f32 := (sM : Memref sig .tc .vmem S2x4x128 .f32).access rS1

/-- What device `c`'s exchange buffer ends holding: row 0 its own partial row sums, row 1 its partner's. -/
def scr (c : Dev nD) : Buf (Elt F) ((c : Thread nD τ).loc cc0_scratch0) :=
  V1.write (Elt F) (V0.write (Elt F) (fun _ => Classical.arbitrary _) (rowS (xstg m ρ c)) Finset.univ) (rowS (xstg m ρ (nbr c))) Finset.univ

/-! ### The rows of the exchange buffer, as sets of its elements -/

theorem set_V0 : (V0 : View sig .tc .vmem rS0.shape .f32).set = rS0.set := View.set_slice_whole _ _
theorem set_V1 : (V1 : View sig .tc .vmem rS1.shape .f32).set = rS1.set := View.set_slice_whole _ _
theorem set_slot0 : (slot0M : Memref sig .tc .vmem S4x128 .f32).view.set = rS0.set :=
  (View.set_reshape _ _).trans (View.set_slice_whole _ _)
theorem set_slot1 : (slot1M : Memref sig .tc .vmem S4x128 .f32).view.set = rS1.set :=
  (View.set_reshape _ _).trans (View.set_slice_whole _ _)

/-- The two rows share no element; -/
theorem rows_disjoint : Disjoint rS0.set rS1.set := Rect.unit_disjoint (0 : Fin 3) (Or.inl (by decide))
/-- together they are the buffer. -/
theorem rows_cover : rS0.set ∪ rS1.set = (Finset.univ : Finset S2x4x128.Idx) := by
  ext i
  simp only [Finset.mem_union, Rect.mem_set_unit, Finset.mem_univ, iff_true]
  have h0 : (i 0).val < 2 := (i 0).isLt
  have h1 : (i 1).val < 4 := (i 1).isLt
  have h2 : (i 2).val < 128 := (i 2).isLt
  by_cases h : (i 0).val = 0
  · left; intro a
    match a with
    | ⟨0, _⟩ => exact ⟨Nat.zero_le _, by show (i 0).val < 0 + 1; omega⟩
    | ⟨1, _⟩ => exact ⟨Nat.zero_le _, by show (i 1).val < 0 + 4; omega⟩
    | ⟨2, _⟩ => exact ⟨Nat.zero_le _, by show (i 2).val < 0 + 128; omega⟩
  · right; intro a
    match a with
    | ⟨0, _⟩ => exact ⟨by show 1 ≤ (i 0).val; omega, by show (i 0).val < 1 + 1; omega⟩
    | ⟨1, _⟩ => exact ⟨Nat.zero_le _, by show (i 1).val < 0 + 4; omega⟩
    | ⟨2, _⟩ => exact ⟨Nat.zero_le _, by show (i 2).val < 0 + 128; omega⟩

/-! ### What the rows of `scr c` read -/

/-- Row 1 of `scr c` is the partner's partial row sums; -/
theorem read1_scr (c : Dev nD) : (V1 : View sig .tc .vmem rS1.shape .f32).read (Elt F) (scr m ρ c) = rowS (xstg m ρ (nbr c)) := by
  unfold scr; exact View.read_write_univ _ _
/-- row 0 the device's own: the write of row 1 does not touch it. -/
theorem disj_V0_V1 : Disjoint (V0 : View sig .tc .vmem rS0.shape .f32).set (V1 : View sig .tc .vmem rS1.shape .f32).set := by
  have h := rows_disjoint
  rw [← set_V0, ← set_V1] at h
  exact h
theorem read0_scr (c : Dev nD) : (V0 : View sig .tc .vmem rS0.shape .f32).read (Elt F) (scr m ρ c) = rowS (xstg m ρ c) :=
  (View.read_slice_write_slice_of_disjoint (v := (sM : Memref sig .tc .vmem S2x4x128 .f32).view) rS0 rS1 _ _ Finset.univ
    (by rw [View.setOn_univ]; exact disj_V0_V1)).trans (View.read_write_univ _ _)

/-! ## The buffers as assertions -/

/-- Row 1 of device `c`'s exchange buffer, whole, at contents `f`: where its partner's copy lands. -/
def slot1Pts (c : Dev nD) (f : Buf (Elt F) ((slot1M : Memref sig .tc .vmem S4x128 .f32).view.loc (c : Thread nD τ))) : sProp 𝕄 :=
  (slot1M : Memref sig .tc .vmem S4x128 .f32).view.loc (c : Thread nD τ) ↦[(slot1M : Memref sig .tc .vmem S4x128 .f32).view.set]{fullShare} f
/-- Row 0 of it at share `q`: the source of its own copy. -/
def slot0Pts (c : Dev nD) (q : PosShare TreeShare) (f : Buf (Elt F) ((slot0M : Memref sig .tc .vmem S4x128 .f32).view.loc (c : Thread nD τ))) : sProp 𝕄 :=
  (slot0M : Memref sig .tc .vmem S4x128 .f32).view.loc (c : Thread nD τ) ↦[(slot0M : Memref sig .tc .vmem S4x128 .f32).view.set]{q} f

instance slot1Pts_storable (c : Dev nD) (f) : BI.Storable (upEmb : UEmb _ 𝕄) (slot1Pts (F := F) c f) := by unfold slot1Pts; infer_instance
instance slot0Pts_storable (c : Dev nD) (q f) : BI.Storable (upEmb : UEmb _ 𝕄) (slot0Pts (F := F) c q f) := by unfold slot0Pts; infer_instance

/-! ## The schedule -/

/-- What the partner's entry signal hands `c`: the partner's landing row and that the partner's receive cell is at round 0. -/
def barPay (c : Dev nD) : sProp 𝕄 := iprop((∃ f, slot1Pts (nbr c) f) ∗ reached ER (recvCell (nbr c)) 0)
/-- What the landing of the partner's copy hands `c`: its landing row holding the partner's partial sums. -/
def recvPay (c : Dev nD) : sProp 𝕄 := slot1Pts c (scr m ρ c)
/-- What the departure of its own copy hands `c`: the read share of its own partial sums it lent the engine. -/
def sendPay (c : Dev nD) : sProp 𝕄 := slot0Pts c fullShare.right (scr m ρ c)

abbrev IsCell (g : GSem nD τ sig) : Prop := g.1.2 = .tc ∧ (g.2 = .reg barS ∨ g.2 = .dma sendS.sem ∨ g.2 = .dma recvS.sem)

/-- One round, round 0, one duty per cell: a barrier cell's of one unit, a send or receive cell's of the row's credit. -/
def sched : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m ρ).duties (barCell c) 0 = {()} := by dsimp only [sched]; exact if_pos ⟨rfl, rfl, .inl rfl⟩
theorem duties_send : (sched (F := F) m ρ).duties (sendCell c) 0 = {()} := by dsimp only [sched]; exact if_pos ⟨rfl, rfl, .inr (.inl rfl)⟩
theorem duties_recv : (sched (F := F) m ρ).duties (recvCell c) 0 = {()} := by dsimp only [sched]; exact if_pos ⟨rfl, rfl, .inr (.inr rfl)⟩
theorem duties_later (g : GSem nD τ sig) : ∀ r, 1 ≤ r → (sched (F := F) m ρ).duties g r = ∅ :=
  fun r hr => by dsimp only [sched]; rw [if_neg fun h => by omega]

theorem amount_bar (d : Unit) : (sched (F := F) m ρ).amount (barCell c) 0 d = 1 := by dsimp only [sched]; exact if_pos rfl
theorem amount_send (d : Unit) : (sched (F := F) m ρ).amount (sendCell c) 0 d = N := by dsimp only [sched]; exact if_neg send_ne_bar
theorem amount_recv (d : Unit) : (sched (F := F) m ρ).amount (recvCell c) 0 d = N := by dsimp only [sched]; exact if_neg recv_ne_bar

theorem expect_bar : (sched (F := F) m ρ).expect (barCell c) 0 = 1 := by
  unfold Schedule.expect Schedule.amountOf; rw [duties_bar, Finset.sum_singleton, amount_bar]
theorem expect_send : (sched (F := F) m ρ).expect (sendCell c) 0 = N := by
  unfold Schedule.expect Schedule.amountOf; rw [duties_send, Finset.sum_singleton, amount_send]
theorem expect_recv : (sched (F := F) m ρ).expect (recvCell c) 0 = N := by
  unfold Schedule.expect Schedule.amountOf; rw [duties_recv, Finset.sum_singleton, amount_recv]

theorem payload_bar (d : Unit) : (sched (F := F) m ρ).payload (barCell c) 0 d = barPay c := by dsimp only [sched]; rw [if_pos rfl]
theorem payload_send (d : Unit) : (sched (F := F) m ρ).payload (sendCell c) 0 d = sendPay m ρ c := by
  dsimp only [sched]; rw [if_neg send_ne_bar, if_neg send_ne_recv, if_pos rfl]
theorem payload_recv (d : Unit) : (sched (F := F) m ρ).payload (recvCell c) 0 d = recvPay m ρ c := by
  dsimp only [sched]; rw [if_neg recv_ne_bar, if_pos rfl]

theorem rest_bar : bigSep ((sched (F := F) m ρ).duties (barCell c) 0 \ ∅) (fun d => (sched (F := F) m ρ).payload (barCell c) 0 d) = barPay c := by
  rw [Finset.sdiff_empty, duties_bar, bigSep_singleton, payload_bar]
theorem rest_send : bigSep ((sched (F := F) m ρ).duties (sendCell c) 0 \ ∅) (fun d => (sched (F := F) m ρ).payload (sendCell c) 0 d) = sendPay m ρ c := by
  rw [Finset.sdiff_empty, duties_send, bigSep_singleton, payload_send]
theorem rest_recv : bigSep ((sched (F := F) m ρ).duties (recvCell c) 0 \ ∅) (fun d => (sched (F := F) m ρ).payload (recvCell c) 0 d) = recvPay m ρ c := by
  rw [Finset.sdiff_empty, duties_recv, bigSep_singleton, payload_recv]

end Sched

/-! ## What each core owes at launch; the levels -/

/-- Device `c` owes its partner's receive cell the row's credit and its partner's barrier cell one unit — summed so
    that the entry signal peels the last summand. -/
def O₀ (c : Dev nD) : CellTallies nD τ sig Unit := tallyAt (recvCell (nbr c)) () N + tallyAt (barCell (nbr c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (nbr c) ∨ g = barCell (nbr c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

/-- A staging wait (level 0) is below everything a device may still owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its barrier wait a device owes its partner's receive credit only: a receive cell, above its barrier cell. -/
theorem mayWait_bar (c : Dev nD) :
    (levAts L lv : sProp 𝕄) ⊢ MayWait (c : Thread nD τ) (.reg barS) () (tallyAt (recvCell (nbr c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (nbr c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (nbr c) ∧ u = ()
      · rw [h.1]; dsimp only [lv]; rw [if_neg recv_ne_bar, if_pos rfl]; decide
      · rw [if_neg h] at hg; exact absurd hg (Nat.lt_irrefl 0))

end Cert.Kernel.Hand

end
-- ==== Proof.KBody.lean ====
/- One thread's body of the row-mean kernel, run from the protocol's invariant: the entry signal to
   the partner, the partial row sums stored to row 0 of the exchange buffer, the wait for the
   partner's entry signal, the copy of row 0 into the partner's row 1, the wait for the partner's
   copy, the four stores of the scaled, transposed and added sums, the wait for the departure. -/
import proofs.«900962_g7700000000000963_dist_mean_ax1_xy_m512_n256_v7x_xy2x2_f32_1_alg».proof.Proof.KProto

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`, from its own block and its partner's. -/
def outAt (c : Dev nD) : (cc0_stg1_0 : Ref sig .tc).ty.Contents (Elt F) := outVal (rowS (xstg m ρ c)) (rowS (xstg m ρ (nbr c)))

/-- The cells' invariants device `c`'s body opens, under the names `K` the launch allocated them at: its own three,
    its partner's barrier cell (its signal) and receive cell (its copy). -/
def invs (K : Dev nD × Fin 3 → ℕ) (c : Dev nD) : sProp 𝕄 :=
  iprop(cellInv ER (sched m ρ) (K (c, 0)) (barCell c) ∗ cellInv ER (sched m ρ) (K (c, 1)) (sendCell c) ∗ cellInv ER (sched m ρ) (K (c, 2)) (recvCell c)
    ∗ cellInv ER (sched m ρ) (K (nbr c, 0)) (barCell (nbr c)) ∗ cellInv ER (sched m ρ) (K (nbr c, 2)) (recvCell (nbr c)))

instance invs_persistent (K : Dev nD × Fin 3 → ℕ) (c : Dev nD) : BI.Persistent (invs m ρ K c) := by unfold invs; infer_instance

/-- The protocol's ghost state device `c` starts from: the invariants; its positions at round 0 of its three cells; the
    reached-marks of the cells it pays and of its own send and receive cells; the three duty tokens it pays with. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (nbr c)) 0 ∗ reached ER (recvCell (nbr c)) 0 ∗ reached ER (sendCell c) 0 ∗ reached ER (recvCell c) 0
    ∗ dutyTok ER (barCell (nbr c)) 0 () ∗ dutyTok ER (recvCell (nbr c)) 0 () ∗ dutyTok ER (sendCell c) 0 ())

/-- What device `c`'s body starts from: that at some names, its two credit tokens (its barrier's unit, its receive
    cell's credit) and the level facts. -/
def start (c : Dev nD) : sProp 𝕄 :=
  iprop((∃ K, ghost m ρ K c) ∗ cred (tallyAt (barCell c) () 1) ∗ cred (tallyAt (recvCell c) () N) ∗ levAts L lv)

/-- The exchange buffer whole. -/
def scrPts (c : Dev nD) (f : Buf (Elt F) ((c : Thread nD τ).loc cc0_scratch0)) : sProp 𝕄 :=
  ((c : Thread nD τ).loc cc0_scratch0) ↦{fullShare} f

def Φ₀ (c : Dev nD) : sProp 𝕄 := iprop(start m ρ c ∗ ∃ f, scrPts c f)
/-- After the point: the exchange buffer whole again, the two OWN cells at zero, closed. -/
def Φ₁ (c : Dev nD) : sProp 𝕄 := iprop((∃ f, scrPts c f) ∗ semVal (sendCell c) 0 ∗ semVal (recvCell c) 0)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The exchange buffer by rows and by shares -/

/-- The buffer whole is its two rows. -/
theorem scr_split (c : Dev nD) (f : Buf (Elt F) ((c : Thread nD τ).loc cc0_scratch0)) :
    (scrPts c f : sProp 𝕄) ⊣⊢ iprop(slot0Pts c fullShare f ∗ slot1Pts c f) := by
  unfold scrPts slot0Pts slot1Pts
  rw [set_slot0, set_slot1]
  have h := pointsTo_union (ℓ := (c : Thread nD τ).loc cc0_scratch0) (q := fullShare) (f := f) (Val := Elt F)
    (Ix := Unit) (Name := ℕ) (U := UU) (Lvl := ℕ) rows_disjoint
  rw [rows_cover] at h
  exact h

/-- Row 0 at the full share is its two halves. -/
theorem slot0_halves (c : Dev nD) (f : Buf (Elt F) ((c : Thread nD τ).loc cc0_scratch0)) :
    (slot0Pts c fullShare f : sProp 𝕄) ⊣⊢ iprop(slot0Pts c fullShare.left f ∗ slot0Pts c fullShare.right f) := by
  unfold slot0Pts
  exact pointsTo_share (PosShare.mem_left_op_right _)

/-- A row's assertion depends on the contents only through what the row reads. -/
theorem slot0Pts_congr (c : Dev nD) (q : PosShare TreeShare) (f g : Buf (Elt F) ((c : Thread nD τ).loc cc0_scratch0))
    (h : (V0 : View sig .tc .vmem rS0.shape .f32).read (Elt F) f = (V0 : View sig .tc .vmem rS0.shape .f32).read (Elt F) g) :
    (slot0Pts c q f : sProp 𝕄) = slot0Pts c q g := by
  unfold slot0Pts
  refine BI.Region.is_congr fun i hi => ?_
  have hi' : i ∈ (V0 : View sig .tc .vmem rS0.shape .f32).set := by rw [set_V0, ← set_slot0]; exact hi
  obtain ⟨y, -, rfl⟩ := Finset.mem_map.mp hi'
  have hy := congrFun h y
  rw [View.read_apply, View.read_apply] at hy
  simpa only [cast_eq] using hy

theorem slot1Pts_congr (c : Dev nD) (f g : Buf (Elt F) ((c : Thread nD τ).loc cc0_scratch0))
    (h : (V1 : View sig .tc .vmem rS1.shape .f32).read (Elt F) f = (V1 : View sig .tc .vmem rS1.shape .f32).read (Elt F) g) :
    (slot1Pts c f : sProp 𝕄) = slot1Pts c g := by
  unfold slot1Pts
  refine BI.Region.is_congr fun i hi => ?_
  have hi' : i ∈ (V1 : View sig .tc .vmem rS1.shape .f32).set := by rw [set_V1, ← set_slot1]; exact hi
  obtain ⟨y, -, rfl⟩ := Finset.mem_map.mp hi'
  have hy := congrFun h y
  rw [View.read_apply, View.read_apply] at hy
  simpa only [cast_eq] using hy

/-! ## The result's staging buffer after the four stores -/

/-- The four bands stored over anything are the result block. -/
theorem out_eq (c : Dev nD) (S R : Vec F S1x4x128 .f32) (g1 : Buf (Elt F) ((c : Thread nD τ).loc cc0_stg1_0)) :
    (oM : Memref sig .tc .vmem S512x1 .f32).view.writes (Elt F) g1
      [⟨rO384, k0_pay6 S R⟩, ⟨rO256, k0_pay5 S R⟩, ⟨rO128, k0_pay4 S R⟩, ⟨rO0, k0_pay3 S R⟩] = outVal S R := by
  have h := View.read_writes_eq_canon (Val := Elt F) (oM : Memref sig .tc .vmem S512x1 .f32).view g1
    [⟨rO384, k0_pay6 S R⟩, ⟨rO256, k0_pay5 S R⟩, ⟨rO128, k0_pay4 S R⟩, ⟨rO0, k0_pay3 S R⟩] (cover_out _ _ _ _)
  unfold outVal
  exact h

/-! ## What the copy lands -/

/-- What device `c`'s copy writes into its partner's row 1 — row 0 of `scr c`, whatever the partner's buffer held —
    reads, through that row, as row 1 of `scr (nbr c)` does: the device's own partial row sums. -/
theorem landing_read (c : Dev nD) (fn : Buf (Elt F) ((nbr c : Thread nD τ).loc cc0_scratch0)) :
    (V1 : View sig .tc .vmem rS1.shape .f32).read (Elt F)
        ((slot1M : Memref sig .tc .vmem S4x128 .f32).view.write (Elt F) fn ((slot0M : Memref sig .tc .vmem S4x128 .f32).view.read (Elt F) (scr m ρ c)) Finset.univ)
      = (V1 : View sig .tc .vmem rS1.shape .f32).read (Elt F) (scr m ρ (nbr c)) := by
  rw [read1_scr, nbr_nbr, ← read0_scr m ρ c]
  funext y
  obtain ⟨x, rfl⟩ := (Shape.reshapeEquiv (squeezes_S1x4x128_S4x128).numel_eq).surjective y
  show (slot1M : Memref sig .tc .vmem S4x128 .f32).view.read (Elt F)
      ((slot1M : Memref sig .tc .vmem S4x128 .f32).view.write (Elt F) fn ((slot0M : Memref sig .tc .vmem S4x128 .f32).view.read (Elt F) (scr m ρ c)) Finset.univ) x = _
  rw [View.read_write_univ]
  rfl

/-! ## The body -/

/-- The staging buffers of the input block and of the result, whole. -/
def xPts (c : Dev nD) (f : Buf (Elt F) ((c : Thread nD τ).loc cc0_stg0_0)) : sProp 𝕄 :=
  (xM : Memref sig .tc .vmem S512x256 .f32).view.loc (c : Thread nD τ) ↦[(xM : Memref sig .tc .vmem S512x256 .f32).view.set]{fullShare} f
def oPts (c : Dev nD) (f : Buf (Elt F) ((c : Thread nD τ).loc cc0_stg1_0)) : sProp 𝕄 :=
  (oM : Memref sig .tc .vmem S512x1 .f32).view.loc (c : Thread nD τ) ↦[(oM : Memref sig .tc .vmem S512x1 .f32).view.set]{fullShare} f
theorem xPts_eq (c : Dev nD) (f) : xPts c f = (((c : Thread nD τ).loc cc0_stg0_0) ↦{fullShare} f : sProp 𝕄) := by
  unfold xPts; rw [View.set_whole]
theorem oPts_eq (c : Dev nD) (f) : oPts c f = (((c : Thread nD τ).loc cc0_stg1_0) ↦{fullShare} f : sProp 𝕄) := by
  unfold oPts; rw [View.set_whole]

section Body

variable (K : Dev nD × Fin 3 → ℕ)

/-- What one thread's body runs from: the protocol's ghost state, its launch credit, the levels, the exchange
    buffer at anything, what it owes, its input block staged and its result's staging buffer at anything. -/
def bodyInv (c : Dev nD) (W : Waits sig Unit) (g1 : Buf (Elt F) ((c : Thread nD τ).loc cc0_stg1_0)) : sProp 𝕄 :=
  iprop(ghost m ρ K c ∗ cred (tallyAt (barCell c) () 1) ∗ cred (tallyAt (recvCell c) () N) ∗ levAts L lv
    ∗ (∃ f, scrPts c f) ∗ owes (c : Thread nD τ) (O₀ c) W
    ∗ xPts c (xstg m ρ c) ∗ oPts c g1)

/-- What it ends in: the exchange buffer whole, its two own cells closed at zero, nothing owed, the input block
    staged as before and the result's staging buffer at the result. -/
def bodyEnd (c : Dev nD) : sProp 𝕄 :=
  iprop(Φ₁ c ∗ (∃ W', owes (c : Thread nD τ) 0 W')
    ∗ xPts c (xstg m ρ c) ∗ oPts c (outAt m ρ c))

theorem payload_bar_pts (c : Dev nD) (d : Unit) : (sched (F := F) m ρ).payload (barCell c) 0 d
    = iprop((∃ f, ((slot1M : Memref sig .tc .vmem S4x128 .f32).view.loc (nbr c : Thread nD τ) ↦[(slot1M : Memref sig .tc .vmem S4x128 .f32).view.set]{fullShare} f))
        ∗ reached ER (recvCell (nbr c)) 0) := by rw [payload_bar]; rfl
theorem payload_send_pts (c : Dev nD) (d : Unit) : (sched (F := F) m ρ).payload (sendCell c) 0 d
    = ((slot0M : Memref sig .tc .vmem S4x128 .f32).view.loc (c : Thread nD τ) ↦[(slot0M : Memref sig .tc .vmem S4x128 .f32).view.set]{fullShare.right} scr m ρ c) := by
  rw [payload_send]; rfl
theorem payload_recv_pts (c : Dev nD) (d : Unit) : (sched (F := F) m ρ).payload (recvCell c) 0 d
    = ((slot1M : Memref sig .tc .vmem S4x128 .f32).view.loc (c : Thread nD τ) ↦[(slot1M : Memref sig .tc .vmem S4x128 .f32).view.set]{fullShare} scr m ρ c) := by
  rw [payload_recv]; rfl

theorem payload_barN_pts (c : Dev nD) (d : Unit) : (sched (F := F) m ρ).payload (barCell (nbr c)) 0 d
    = iprop((∃ f, ((slot1M : Memref sig .tc .vmem S4x128 .f32).view.loc (c : Thread nD τ) ↦[(slot1M : Memref sig .tc .vmem S4x128 .f32).view.set]{fullShare} f))
        ∗ reached ER (recvCell c) 0) := by rw [payload_bar_pts, nbr_nbr]

/-- The copy of row 0 into the partner's row 1, by the rounds library's rule for an addressed transfer whose
    destination the issuer holds: the read share of row 0 goes to the send cell's duty, the partner's row 1,
    rewritten, to the partner's receive cell's duty. The transfer is addressed to `n = nbr c`. -/
theorem wp_send_row (c n : Dev nD) (hn : n = nbr c) {hsc : (slot1M : Memref sig (Dev.tc n : Thread nD τ).2.kind .vmem S4x128 .f32).view.ref.isScScratch = false}
    {hsrc : (slot0M : Memref sig .tc .vmem S4x128 .f32).view.WordExact} {hdst : (slot1M : Memref sig .tc .vmem S4x128 .f32).view.WordExact}
    {hsem : DmaTarget.Typed .vmem (.dma recvS.sem) (.remote (Dev.tc n : Thread nD τ) (slot1M : Memref sig .tc .vmem S4x128 .f32) (.dma sendS.sem) hsc)}
    {α : Type} {Q : α → sProp 𝕄} {k : PUnit → Prog (TpuEff nD τ sig (Elt F) Λ₀ .tc) α}
    (fn : Buf (Elt F) ((slot1M : Memref sig .tc .vmem S4x128 .f32).view.loc (nbr c : Thread nD τ))) (W : Waits sig Unit) :
    iprop(cellInv ER (sched m ρ) (K (c, 1)) (sendCell c) ∗ cellInv ER (sched m ρ) (K (nbr c, 2)) (recvCell (nbr c))
        ∗ slot0Pts c fullShare.right (scr m ρ c) ∗ slot1Pts (nbr c) fn
        ∗ owes (c : Thread nD τ) (tallyAt (recvCell (nbr c)) () N) W
        ∗ dutyTok ER (sendCell c) 0 () ∗ reached ER (sendCell c) 0
        ∗ dutyTok ER (recvCell (nbr c)) 0 () ∗ reached ER (recvCell (nbr c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0M (.remote (Dev.tc n : Thread nD τ) slot1M (.dma sendS.sem) hsc) (.dma recvS.sem) hsrc hdst hsem) k) Q) := by
  subst hn
  unfold slot0Pts slot1Pts
  exact Rounds.wp_send_pointsTo 𝒱₀ ER (sched m ρ) (c : Thread nD τ) none (κ₁ := K (c, 1)) (κ₂ := K (nbr c, 2))
    (r₁ := 0) (r₂ := 0) (d₁ := ()) (d₂ := ()) (fd := fn)
    (by rw [duties_send]; exact Finset.mem_singleton_self _) (by rw [duties_recv]; exact Finset.mem_singleton_self _)
    () () N rfl (amount_send m ρ c ()) (amount_recv m ρ (nbr c) ()) 0 (by rw [zero_add]) (W := W)
    (by rw [payload_send_pts] <;> first | done | exact BI.Entails.refl _)
    (by
      rw [payload_recv]; unfold recvPay
      have h := slot1Pts_congr (F := F) (nbr c) _ _ (landing_read m ρ c fn)
      unfold slot1Pts at h ⊢
      rw [h] <;> first | done | exact BI.Entails.refl _)

attribute [local sl_rounds] payload_barN_pts duties_bar duties_send duties_recv amount_bar amount_send amount_recv
  payload_send_pts payload_recv_pts expect_bar expect_send expect_recv
attribute [local sl_canon] dev1_eq dev2_eq

set_option maxHeartbeats 1600000 in
theorem sound_body (c : Dev nD) (W : Waits sig Unit) (g1 : Buf (Elt F) ((c : Thread nD τ).loc cc0_stg1_0)) (Kt : PUnit → sProp 𝕄) :
    iprop(bodyInv m ρ K c W g1 ∗ (bodyEnd m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  unfold bodyInv ghost invs
  iintro ⟨⟨⟨⟨#HIbar, #HIsnd, #HIrcv, #HIbarN, #HIrcvN⟩, HatB, HatS, HatV, #HrBN, #HrVN, #HrS, #HrV, HtBN, HtVN, HtS⟩,
    HcB, HcV, #Hlev, ⟨%f0, Hscr⟩, HO, Hx, Hout⟩, Hk⟩
  unfold O₀
  have hsplit := (scr_split (F := F) c f0).1
  ihave Hs := hsplit $$ Hscr
  icases Hs with ⟨Hs0, Hs1⟩
  irevert Hs0
  iintro Hs0
  unfold slot0Pts slot1Pts xPts oPts
  have hmw := mayWait_bar (F := F) c
  sl_exec
  -- the partner's entry signal has handed over the partner's landing row
  ihave Hp := (Entails.of_eq (payload_bar_pts m ρ c ())) $$ HatB_pay1
  icases Hp with ⟨⟨%fn, HscrN⟩, #HrVN'⟩
  -- row 0 now holds the device's own partial row sums: restated at the buffer's final contents, and halved
  have hz2 : (![0, 0] : Fin 2 → Nat) = fun _ => 0 := funext fun a => by fin_cases a <;> rfl
  have hw : (V0 : View sig .tc .vmem rS0.shape .f32).read (Elt F) (sound_body.sl.Hs0_w1 m ρ c f0)
      = (V0 : View sig .tc .vmem rS0.shape .f32).read (Elt F) (scr m ρ c) := by
    unfold sound_body.sl.Hs0_w1
    rw [read0_scr]
    refine (View.read_write_univ _ _).trans ?_
    unfold rowS
    exact congrArg k0_pay1 (Memref.readAt_unit_zero (Elt F) cc0_stg0_0 hz2 _ _)
  have hcg := Entails.of_eq (slot0Pts_congr (F := F) c fullShare _ _ hw)
  have hhalf := (slot0_halves (F := F) c (scr m ρ c)).1
  unfold slot0Pts at hcg hhalf
  ihave Hs0' := hcg $$ Hs0
  ihave Hh := hhalf $$ Hs0'
  icases Hh with ⟨Hs0L, Hs0R⟩
  -- the copy into the partner's row 1
  iapply (wp_send_row m ρ K c _ (dev2_eq c) fn _) $$ [Hs0R HscrN HO HtS HtVN]
  · unfold slot0Pts slot1Pts
    isplitr; · iexact HIsnd
    isplitr; · iexact HIrcvN
    isplitl [Hs0R]; · iexact Hs0R
    isplitl [HscrN]; · iexact HscrN
    isplitl [HO]; · iexact HO
    isplitl [HtS]; · iexact HtS
    isplitr; · iexact HrS
    isplitl [HtVN]; · iexact HtVN
    iexact HrVN
  iintro ⟨HcS, HO⟩
  sl_exec
  -- the two own cells close: no later round has a duty
  imod (Rounds.cell_close ER (sched m ρ) (κ := K (c, 1)) (g := sendCell c) (Set.mem_univ _) (fun h => h) (R := 1) (duties_later m ρ (sendCell c))) $$ [HatS] with HzS
  · isplitr; · iexact HIsnd
    iexact HatS
  imod (Rounds.cell_close ER (sched m ρ) (κ := K (c, 2)) (g := recvCell c) (Set.mem_univ _) (fun h => h) (R := 1) (duties_later m ρ (recvCell c))) $$ [HatV] with HzV
  · isplitr; · iexact HIrcv
    iexact HatV
  -- the exchange buffer whole again: row 0's two halves, then the two rows
  have hjoinS := (slot0_halves (F := F) c (scr m ρ c)).2
  have hjoin := (scr_split (F := F) c (scr m ρ c)).2
  unfold slot0Pts at hjoinS
  unfold slot0Pts slot1Pts at hjoin
  ihave Hs0 := hjoinS $$ [Hs0L HatS_pay1]
  · isplitl [Hs0L] <;> iassumption
  ihave Hscr := hjoin $$ [Hs0 HatV_pay1]
  · isplitl [Hs0] <;> iassumption
  -- the result's staging buffer holds the result block
  have hS : View.readAt (Elt F) (sM : Memref sig .tc .vmem S2x4x128 .f32).view rS0.toLoadRect (scr m ρ c) = rowS (xstg m ρ c) := read0_scr m ρ c
  have e := (out_eq (F := F) c (View.readAt (Elt F) (sM : Memref sig .tc .vmem S2x4x128 .f32).view rS0.toLoadRect (scr m ρ c)) (rowS (xstg m ρ (nbr c))) g1).trans
    (congrArg (fun S => outVal S (rowS (xstg m ρ (nbr c)))) hS)
  have eo := Entails.of_eq (congrArg (fun f => ((oM : Memref sig .tc .vmem S512x1 .f32).view.loc (c : Thread nD τ) ↦[(oM : Memref sig .tc .vmem S512x1 .f32).view.set]{fullShare} f : sProp 𝕄)) e)
  ihave Hout' := eo $$ Hout
  sl_step
  iapply Hk
  unfold bodyEnd Φ₁ xPts oPts outAt
  isplitl [Hscr HzS HzV]
  · isplitl [Hscr]; · iexists _; iexact Hscr
    isplitl [HzS] <;> iassumption
  isplitl [HO]; · iexists _; iexact HO
  isplitl [Hx]; · iexact Hx
  iexact Hout'

end Body

/-! ## The library's body obligation -/

section Obligation

set_option maxRecDepth 4000 in
/-- What the launch theorem hands one thread's body at the one grid point. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it expects back. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start Dat.owesAt Pipeline.owesWithin
  rw [show (dats m ρ 0 c).owed t₀.castSucc = O₀ c from rfl]
  iintro ⟨⟨⟨⟨%K, Hg⟩, HcB, HcV, Hlev⟩, Hscr⟩, ⟨%W, %hW, HO⟩, ⟨%d0, %g0, %hg0, Hx⟩, ⟨%d1, %g1, %hg1, Hout⟩⟩
  have hx : g0 = xstg m ρ c := by rw [hg0]; unfold Dat.before; rw [if_pos (fetch_0 t₀)]; rfl
  subst hx
  iapply (sound_body m ρ K c W g1 fun _ => bodyPost m ρ c)
  unfold bodyInv
  isplitr []
  · isplitl [Hg]; · iexact Hg
    isplitl [HcB]; · iexact HcB
    isplitl [HcV]; · iexact HcV
    isplitl [Hlev]; · iexact Hlev
    isplitl [Hscr]; · iexact Hscr
    isplitl [HO]; · iexact HO
    isplitl [Hx]; · rw [xPts_eq]; iexact Hx
    rw [oPts_eq]; iexact Hout
  · unfold bodyEnd bodyPost Dat.owesAt Pipeline.owesWithin
    rw [show (dats m ρ 0 c).owed t₀.succ = 0 from rfl]
    rw [xPts_eq, oPts_eq]
    iintro ⟨HΦ, ⟨%W', HO⟩, Hx, Hout⟩
    isplitl [HΦ]; · iexact HΦ
    isplitl [HO]
    · iexists W'
      isplitr; · ipureintro; exact fun _ _ => Or.inl trivial
      iexact HO
    isplitl [Hx]
    · iexists _; isplitr; · (ipureintro; rfl)
      iexact Hx
    iexists _; isplitr; · (ipureintro; rfl)
    iexact Hout

end Obligation

end Cert.Kernel.Hand

end
-- ==== Proof.KLaunch.lean ====
/- The launch of the row-mean kernel on the 2 × 2 mesh. Every device's three cells (its barrier cell, its send
   cell, its receive cell) are funded at round 0 with one duty token each; the tokens of the barrier and receive
   cells travel to the partner, who pays those duties; each device keeps its own send token. The cells'
   invariants are allocated for all devices under one update, because a barrier or receive cell is opened by
   two devices. At launch device `c` is owed one unit on its barrier cell and the row's credit on its receive
   cell, both by its partner. From the body's obligation the launch theorem gives the run of the whole program;
   the input array ends as it began, and the result array ends holding the result block computed from the
   device's own block and its partner's. -/
import proofs.«900962_g7700000000000963_dist_mean_ax1_xy_m512_n256_v7x_xy2x2_f32_1_alg».proof.Proof.KBody
import proofs.«900962_g7700000000000963_dist_mean_ax1_xy_m512_n256_v7x_xy2x2_f32_1_alg».proof.Proof.Gen.Kernel.Points
import Idealize.ShloMosaic.Lib.Pipeline.Launch
import Idealize.ShloMosaic.Lib.Pipeline.Kit
import Idealize.ShloMosaic.Lib.Pipeline.Cells
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- All twelve cells of the protocol. -/
def pairCells : Finset (GSem nD τ sig) := Finset.univ.map ⟨kcell, kcell_injective⟩

/-- The one duty token of each cell, as minted: the cell, round 0, the duty. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg (fun x : GSem nD τ sig × ℕ × Unit => x.1) h)
def pairToks : Finset (GSem nD τ sig × ℕ × Unit) := Finset.univ.map ⟨tokOf, tokOf_injective⟩

def u₀ : UU :=
  (initOf (Pipeline.cells cfgs cellOf_inj) (Pipeline.launchToks cfgs cellOf_inj), initOf pairCells pairToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (sched m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_pair : BI.own (ER (initOf pairCells pairToks)) ⊢ (|==> bigSep Finset.univ (G m ρ) : sProp 𝕄) := by
  have hX (Φ : GSem nD τ sig → sProp 𝕄) : bigSep pairCells Φ = bigSep Finset.univ fun c : Dev nD => bigSep Finset.univ fun k : Fin 3 => Φ (kcell (c, k)) := by
    unfold pairCells; rw [bigSep_map, bigSep_univ_prod]; rfl
  have hT : bigSep pairToks (fun x => (dutyTok ER x.1 x.2.1 x.2.2 : sProp 𝕄)) = bigSep Finset.univ fun c : Dev nD => toks c := by
    unfold pairToks; rw [bigSep_map, bigSep_univ_prod]
    exact bigSep_congr fun c _ => by unfold toks; rw [bigSep_fin3]; rfl
  iintro HX
  imod (Rounds.fund ER (sched m ρ) pairCells pairToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant, under the names the allocation chose, and every cell at round 0: persistent. -/
def records (K : Dev nD × Fin 3 → ℕ) : sProp 𝕄 :=
  iprop((bigSep Finset.univ fun ck : Dev nD × Fin 3 => cellInv ER (sched m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (sched m ρ) (K ck) (kcell ck) : sProp 𝕄)) ⊢ cellInv ER (sched m ρ) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays — its partner's barrier and
    receive duties, and its own send duty. -/
def payToks (c : Dev nD) : sProp 𝕄 :=
  iprop(dutyTok ER (barCell (nbr c)) 0 () ∗ dutyTok ER (recvCell (nbr c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBN, HtVN, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (nbr c, 0)); iexact HI
    iapply (inv_at m ρ K (nbr c, 2)); iexact HI
  isplitl [HaB]; · iexact HaB
  isplitl [HaS]; · iexact HaS
  isplitl [HaV]; · iexact HaV
  isplitr; · iapply (reached_at (F := F) (nbr c, 0)); iexact HR
  isplitr; · iapply (reached_at (F := F) (nbr c, 2)); iexact HR
  isplitr; · iapply (reached_at (F := F) (c, 1)); iexact HR
  isplitr; · iapply (reached_at (F := F) (c, 2)); iexact HR
  isplitl [HtBN]; · iexact HtBN
  isplitl [HtVN]; · iexact HtVN
  iexact HtS

/-- The tokens dealt between partners: a barrier cell's token and a receive cell's token go to the partner, the
    partner map being an involution of the mesh; a send cell's token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pair (fun c : Dev nD => (dutyTok ER (barCell c) 0 () : sProp 𝕄)),
    bigSep_univ_equiv pair (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (sched m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- Device `d` owes the barrier cell and the receive cell of its partner, and the partner map is its own inverse:
    so device `c` is dealt one unit of credit on its barrier cell and the row's credit on its receive cell. -/
theorem creds (c : Dev nD) :
    (Pipeline.launchCred O₀ c : sProp 𝕄) ⊢ iprop(cred (tallyAt (barCell c) () 1) ∗ cred (tallyAt (recvCell c) () N)) := by
  have h : (Pipeline.launchCred O₀ c : sProp 𝕄)
      = iprop(Pipeline.launchCred (fun d : Dev nD => (tallyAt (recvCell (nbr d)) () N : CellTallies nD τ sig Unit)) c
          ∗ Pipeline.launchCred (fun d : Dev nD => (tallyAt (barCell (nbr d)) () 1 : CellTallies nD τ sig Unit)) c) :=
    Pipeline.launchCred_add (fun d : Dev nD => (tallyAt (recvCell (nbr d)) () N : CellTallies nD τ sig Unit))
      (fun d : Dev nD => (tallyAt (barCell (nbr d)) () 1 : CellTallies nD τ sig Unit)) c
  rw [h]
  iintro ⟨HV, HB⟩
  isplitl [HB]
  · iapply (Pipeline.launchCred_tallyAt (.reg barS) nbr nbr nbr_nbr nbr_nbr () 1 c); iexact HB
  · iapply (Pipeline.launchCred_tallyAt (.dma recvS.sem) nbr nbr nbr_nbr nbr_nbr () N c); iexact HV

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scrPts
  iintro ⟨⟨%f, Hr⟩, HzS, HzV⟩
  isplitr; · iempintro
  isplitl [HzS HzV]
  · isplitl [HzS] <;> iassumption
  iexists f; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main terminates, and every final state has each device's arrays at the contents the proof data
    names after the one grid point. -/
theorem run_main : θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_pair m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (st0 m ρ).mem (win0_0.arr.view.loc (c : Thread nD τ)) :=
  (dats (F := F) m ρ 0 c).arrAt_in (0 : Fin 2) rfl _

/-- The result window's block is the whole result array: reading any contents through it gives the contents. -/
theorem read_blk1 (f : (main_v1 : Ref sig .tc).ty.Contents (Elt F)) :
    ((cfg0.win (1 : Fin 2)).blk t₀).view.read (Elt F) f = f :=
  Memref.read_access_unit_zero (Elt F) main_v1 (funext fun a => Nat.zero_mul _) _ f

/-- The result array after the run holds the result block: the one grid point writes the whole array back from the
    staging buffer, which the body left at the result. -/
theorem finalA_out (c : Dev nD) : finalA m ρ c (1 : Fin 2) = outAt m ρ c := by
  have h := (dats (F := F) m ρ 0 c).arrAt_succ (1 : Fin 2) t₀
  rw [if_pos (flush0_1 t₀)] at h
  show (dats (F := F) m ρ 0 c).arrAt (1 : Fin 2) (t₀.val + 1) = outAt m ρ c
  rw [h]
  exact (read_blk1 _).symm.trans (View.read_write_univ _ _)

/-- The input window's block is the whole input array: what the staging buffer holds of it is the array. -/
theorem xstg_eq (c : Dev nD) : xstg m ρ c = m ((c : Thread nD τ).loc main_arg0) :=
  Memref.read_access_unit_zero (Elt F) main_arg0 (funext fun a => Nat.zero_mul _) _ _

/-- THE KERNEL'S RUN: from any memory with zero counters every weakly fair execution of @main on the four devices
    terminates; each device's result array ends holding the result block computed from its own input block and
    its partner's, and its input array ends unchanged. -/
theorem kernel_run :
    θ_run (defs (F := F)) (onTc (τ := τ) (main (F := F))) ⟨m, fun _ => 0, ρ⟩ (fun r => ∀ c : Dev nD,
      r.2.mem ((c.tc : Thread nD τ).loc main_v1) = outVal (rowS (m ((c.tc : Thread nD τ).loc main_arg0))) (rowS (m (((nbr c).tc : Thread nD τ).loc main_arg0)))
      ∧ r.2.mem ((c.tc : Thread nD τ).loc main_arg0) = m ((c.tc : Thread nD τ).loc main_arg0)) :=
  (θ_run _ _ _).mono (fun r h c => ⟨by
      have h1 := (h c (1 : Fin 2)).trans (finalA_out m ρ c)
      unfold outAt at h1
      rw [xstg_eq, xstg_eq] at h1
      exact h1,
    (h c (0 : Fin 2)).trans (finalA_x m ρ c)⟩) (run_main m ρ)

/-- info: 'Cert.Kernel.Hand.run_main' depends on axioms: [propext, Classical.choice, Quot.sound] -/
#guard_msgs in #print axioms run_main
/-- info: 'Cert.Kernel.Hand.finalA_x' depends on axioms: [propext, Classical.choice, Quot.sound] -/
#guard_msgs in #print axioms finalA_x
/-- info: 'Cert.Kernel.Hand.finalA_out' depends on axioms: [propext, Classical.choice, Quot.sound] -/
#guard_msgs in #print axioms finalA_out
/-- info: 'Cert.Kernel.Hand.xstg_eq' depends on axioms: [propext, Classical.choice, Quot.sound] -/
#guard_msgs in #print axioms xstg_eq
/-- info: 'Cert.Kernel.Hand.kernel_run' depends on axioms: [propext, Classical.choice, Quot.sound] -/
#guard_msgs in #print axioms kernel_run

end Cert.Kernel.Hand

end
-- ==== Proof.ValueAlg.lean ====
/- The arithmetic of one row of the mean, over the extended reals. A sum over 512 columns is the sum of
   its two halves of 256 columns, in either order. Multiplying by the finite nonnegative number 1/512
   distributes over a sum of two extended reals whatever they are (no finiteness of the summands is
   needed). Dividing by 512 is multiplying by 1/512. So "scale each half's sum by 1/512 and add" is
   "zero plus the whole row's sum, divided by 512". -/
import Mathlib.Data.EReal.Operations
import Mathlib.Data.EReal.Inv
import Mathlib.Algebra.BigOperators.Fin
import Idealize.ShloMosaic.PureOps.Ideal
import Idealize.ShloMosaic.PureOps.Ideal.Laws

noncomputable section

open scoped BigOperators

namespace Cert.KernelIdeal.HandValue

open Idealize.ShloMosaic

/-- The f32 word 0x3B000000 denotes 2^-9 = 1/512. -/
theorem lit_inv512 : Ideal.ofBits .f32 0x3B000000#32 = ((1 / 512 : ℝ) : EReal) := by
  simp [Ideal.ofBits, Ideal.ieee, -EReal.coe_mul]; norm_num

/-- The f32 word 0x44000000 denotes 2^9 = 512. -/
theorem lit_512 : Ideal.ofBits .f32 0x44000000#32 = ((512 : ℝ) : EReal) := by
  simp [Ideal.ofBits, Ideal.ieee, -EReal.coe_mul]; norm_num

/-- Dividing an extended real by 512 is multiplying it by 1/512. -/
theorem div_512 (x : EReal) : Ideal.div x ((512 : ℝ) : EReal) = x * ((1 / 512 : ℝ) : EReal) := by
  unfold Ideal.div
  rw [if_neg (EReal.coe_ne_zero.2 (by norm_num)), ← EReal.coe_inv]
  congr 2
  norm_num

/-- 1/512 is nonnegative and finite: it distributes over any sum of two extended reals. -/
theorem add_mul_inv512 (x y : EReal) :
    (x + y) * ((1 / 512 : ℝ) : EReal) = x * ((1 / 512 : ℝ) : EReal) + y * ((1 / 512 : ℝ) : EReal) :=
  EReal.right_distrib_of_nonneg_of_ne_top (EReal.coe_nonneg.2 (by norm_num)) (EReal.coe_ne_top _) x y

/-- A sum over 512 columns is the sum over the first 256 plus the sum over the last 256. -/
theorem sum_halves (w : Fin 512 → EReal) :
    ∑ k : Fin 512, w k
      = (∑ k : Fin 256, w ⟨k.val, by omega⟩) + ∑ k : Fin 256, w ⟨256 + k.val, by omega⟩ :=
  Fin.sum_univ_add (a := 256) (b := 256) w

/-- ONE ROW, the device that holds the first half: its own 256 columns are `a`, its partner's are `b`,
    and the whole row `w` is `a` followed by `b`. -/
theorem row_mean_fst (a b : Fin 256 → EReal) (w : Fin 512 → EReal)
    (ha : ∀ k : Fin 256, w ⟨k.val, by omega⟩ = a k) (hb : ∀ k : Fin 256, w ⟨256 + k.val, by omega⟩ = b k) :
    (∑ k, a k) * Ideal.ofBits .f32 0x3B000000#32 + (∑ k, b k) * Ideal.ofBits .f32 0x3B000000#32
      = Ideal.div (Ideal.ofBits .f32 0x00000000#32 + ∑ k, w k) (Ideal.ofBits .f32 0x44000000#32) := by
  rw [lit_inv512, lit_512, Ideal.ofBits_zero_f32, zero_add, div_512, sum_halves, add_mul_inv512]
  simp only [ha, hb]

/-- ONE ROW, the device that holds the second half: its own columns are `b`, its partner's are `a`; the
    two scaled sums are added in the other order, and addition of extended reals commutes. -/
theorem row_mean_snd (a b : Fin 256 → EReal) (w : Fin 512 → EReal)
    (ha : ∀ k : Fin 256, w ⟨k.val, by omega⟩ = a k) (hb : ∀ k : Fin 256, w ⟨256 + k.val, by omega⟩ = b k) :
    (∑ k, b k) * Ideal.ofBits .f32 0x3B000000#32 + (∑ k, a k) * Ideal.ofBits .f32 0x3B000000#32
      = Ideal.div (Ideal.ofBits .f32 0x00000000#32 + ∑ k, w k) (Ideal.ofBits .f32 0x44000000#32) := by
  rw [add_comm]
  exact row_mean_fst a b w ha hb

/-- info: 'Cert.KernelIdeal.HandValue.row_mean_fst' depends on axioms: [propext, Classical.choice, Quot.sound] -/
#guard_msgs in #print axioms row_mean_fst
/-- info: 'Cert.KernelIdeal.HandValue.row_mean_snd' depends on axioms: [propext, Classical.choice, Quot.sound] -/
#guard_msgs in #print axioms row_mean_snd

end Cert.KernelIdeal.HandValue

end
-- ==== Proof.ValueRef.lean ====
/- The reference's result as one function of the whole array: row `R` of the result holds zero plus the
   sum of row `R`'s 512 columns, divided by 512. -/
import proofs.«900962_g7700000000000963_dist_mean_ax1_xy_m512_n256_v7x_xy2x2_f32_1_alg».proof.Proof.Gen.ReferenceIdeal.Run
import proofs.«900962_g7700000000000963_dist_mean_ax1_xy_m512_n256_v7x_xy2x2_f32_1_alg».proof.Proof.Gen.ReferenceIdeal.Read
import Idealize.ShloMosaic.Lib.ValueIdx

noncomputable section

open scoped BigOperators

namespace Cert.KernelIdeal.HandValue

open Cert.ReferenceIdeal Cert.ReferenceIdeal.Gen Idealize.ShloMosaic Idealize.ShloMosaic.TcCoe Idealize.SL.Sem Idealize.ShloMosaic.StableHlo
open Idealize.ShloMosaic.ValueIdx

/-- The reference's result as a function of its argument: the quotient, by the splat of 512, of the column of
    row sums (from the initial value zero). -/
def refOut (X' : Vec Ideal Cert.ReferenceIdeal.S1024x512 .f32) : Vec Ideal Cert.ReferenceIdeal.S1024x1 .f32 :=
  Host.divf (F := Ideal) (broadcastInDim S1024x1 ![0] bcast_S1024_S1024x1_0 (Host.reduceAdd (F := Ideal) X' (constant (F := Ideal) S_ .f32 0x00000000#32) reducesTo_S1024x512_S1024_d1 h_S_)) (broadcastInDim S1024x1 ![] bcast_S_S1024x1 (constant (F := Ideal) S_ .f32 0x44000000#32))

/-- It is the last stage of the reference read one operation at a time. -/
theorem refOut_eq (X' : Vec Ideal Cert.ReferenceIdeal.S1024x512 .f32) : refOut X' = Cert.ReferenceIdeal.Read.val_main_v3 (F := Ideal) X' := rfl

/-- The reference runs, ends with its result at `refOut` of its argument, and leaves its argument unchanged. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = refOut (m' (((0 : Dev Cert.ReferenceIdeal.nD).tc : Thread Cert.ReferenceIdeal.nD Cert.ReferenceIdeal.τ).loc Cert.ReferenceIdeal.main_arg0))
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run _ _ _).mono (fun _ h => h 0) (Cert.ReferenceIdeal.Value.run (F := Ideal) m' g')

/-- The reference's result at an index: the initial value (the word zero) plus the sum over the 512 columns of
    the index's row, divided by the word 512. -/
theorem refOut_apply (X' : Vec Ideal Cert.ReferenceIdeal.S1024x512 .f32) (i : Cert.ReferenceIdeal.S1024x1.Idx) :
    refOut X' i = Ideal.div (Ideal.ofBits .f32 0x00000000#32 + ∑ k : Fin 512, X' (ix2 (i 0) k)) (Ideal.ofBits .f32 0x44000000#32) := by
  have hidx : ∀ k : Fin 512, Cert.ReferenceIdeal.Read.idx_main_v0 (Cert.ReferenceIdeal.Read.idx_main_v1 i) k = ix2 (i 0) k := fun k =>
    funext fun a => Fin.ext (by match a with | ⟨0, _⟩ => rfl | ⟨1, _⟩ => rfl)
  rw [refOut_eq, Cert.ReferenceIdeal.Read.val_main_v3_apply, Cert.ReferenceIdeal.Read.val_main_v1_apply, Cert.ReferenceIdeal.Read.val_main_v0_apply,
    Cert.ReferenceIdeal.Read.val_main_v2_apply, Cert.ReferenceIdeal.Read.val_main_cst_0_apply, Cert.ReferenceIdeal.Read.val_main_cst_apply]
  simp only [hidx, Ideal.hostDivf_def, Ideal.ofBits_def]
  rfl

/-- info: 'Cert.KernelIdeal.HandValue.ref_run' depends on axioms: [propext, Classical.choice, Quot.sound] -/
#guard_msgs in #print axioms ref_run
/-- info: 'Cert.KernelIdeal.HandValue.refOut_apply' depends on axioms: [propext, Classical.choice, Quot.sound] -/
#guard_msgs in #print axioms refOut_apply

end Cert.KernelIdeal.HandValue

end
-- ==== Proof.ValueKernel.lean ====
/- The kernel's result block, read at a row. A device's partial row sums at (0, i, j) are the sum over its
   256 columns of row 128 i + j of its block; the transposed, scaled and added sums at (j, i) are the own and
   the received partial sums at (0, i, j), each times the scale; band i of the result block holds column i of
   those. So row r of the result block holds the own block's row sum times the scale plus the partner block's
   row sum times the scale. -/
import proofs.«900962_g7700000000000963_dist_mean_ax1_xy_m512_n256_v7x_xy2x2_f32_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.HandValue

open Cert.KernelIdeal Cert.KernelIdeal.Gen Cert.KernelIdeal.Hand
open Idealize.ShloMosaic Idealize.ShloMosaic.ValueIdx

/-- Row `r` of the result block as a function of the two blocks: each block's row sum times the scale, added. -/
def rowVal (X Y : Vec Ideal S512x256 .f32) (r : Fin 512) : EReal :=
  (∑ k : Fin 256, X (ix2 r k)) * Ideal.ofBits .f32 0x3B000000#32
    + (∑ k : Fin 256, Y (ix2 r k)) * Ideal.ofBits .f32 0x3B000000#32

/-- The partial row sums at (0, i, j): the sum over the 256 columns of row 128 i + j. -/
theorem rowS_apply (X : Vec Ideal S512x256 .f32) (u : Fin 1) (i : Fin 4) (j : Fin 128) :
    rowS (F := Ideal) X (ix3 u i j) = ∑ k : Fin 256, X (ix2 ⟨128 * i.val + j.val, by omega⟩ k) := by
  unfold rowS k0_pay1
  rw [shapeCast_ab_1ab_apply]
  refine (Ideal.multiReduction_add_single _ _ _ _ _ (ix2 i j)).trans ?_
  refine Finset.sum_congr rfl fun k _ => ?_
  rw [shapeCast_self]
  refine shapeCast_apply _ _ _ (ix2 ⟨128 * i.val + j.val, by omega⟩ k) ?_
  rw [Shape.rowMajor_val_two, Shape.rowMajor_val_three]
  show (128 * i.val + j.val) * 256 + k.val = (i.val * 128 + j.val) * 256 + k.val
  omega

/-- The transposed, scaled and added sums at (j, i): the own and the received sums at (0, i, j), each times the scale. -/
theorem pay2_apply (S R : Vec Ideal S1x4x128 .f32) (j : Fin 128) (i : Fin 4) :
    k0_pay2 (F := Ideal) S R (ix2 j i)
      = S (ix3 (0 : Fin 1) i j) * Ideal.ofBits .f32 0x3B000000#32 + R (ix3 (0 : Fin 1) i j) * Ideal.ofBits .f32 0x3B000000#32 := by
  unfold k0_pay2
  rw [addf_apply, transpose_ix2_apply, transpose_ix2_apply, mulf_apply, mulf_apply,
    shapeCast_1ab_ab_apply, shapeCast_1ab_ab_apply]
  rfl

/-- Column `i` of them, over the two devices' partial row sums, at row `j`: row 128 i + j of the result block. -/
theorem pay2_rowS_apply (X Y : Vec Ideal S512x256 .f32) (j : Fin 128) (i : Fin 4) :
    k0_pay2 (F := Ideal) (rowS X) (rowS Y) (ix2 j i) = rowVal X Y ⟨128 * i.val + j.val, by omega⟩ := by
  rw [pay2_apply, rowS_apply, rowS_apply]
  rfl

/-- Band 0's payload at local row `j` is column 0 of the added sums at row `j`; -/
theorem pay3_apply (S R : Vec Ideal S1x4x128 .f32) (j : Fin 128) (z : Fin 1) :
    k0_pay3 (F := Ideal) S R (ix2 j z) = k0_pay2 (F := Ideal) S R (ix2 j (⟨0, by omega⟩ : Fin 4)) := by
  unfold k0_pay3
  exact slice2_axis1_apply 0 _ _ j z ⟨0, by omega⟩ (by show 0 = 0 + z.val; omega)

/-- band 1's is column 1; -/
theorem pay4_apply (S R : Vec Ideal S1x4x128 .f32) (j : Fin 128) (z : Fin 1) :
    k0_pay4 (F := Ideal) S R (ix2 j z) = k0_pay2 (F := Ideal) S R (ix2 j (⟨1, by omega⟩ : Fin 4)) := by
  unfold k0_pay4
  exact slice2_axis1_apply 1 _ _ j z ⟨1, by omega⟩ (by show 1 = 1 + z.val; omega)

/-- band 2's is column 2; -/
theorem pay5_apply (S R : Vec Ideal S1x4x128 .f32) (j : Fin 128) (z : Fin 1) :
    k0_pay5 (F := Ideal) S R (ix2 j z) = k0_pay2 (F := Ideal) S R (ix2 j (⟨2, by omega⟩ : Fin 4)) := by
  unfold k0_pay5
  exact slice2_axis1_apply 2 _ _ j z ⟨2, by omega⟩ (by show 2 = 2 + z.val; omega)

/-- band 3's is column 3. -/
theorem pay6_apply (S R : Vec Ideal S1x4x128 .f32) (j : Fin 128) (z : Fin 1) :
    k0_pay6 (F := Ideal) S R (ix2 j z) = k0_pay2 (F := Ideal) S R (ix2 j (⟨3, by omega⟩ : Fin 4)) := by
  unfold k0_pay6
  exact slice2_axis1_apply 3 _ _ j z ⟨3, by omega⟩ (by show 3 = 3 + z.val; omega)

/-- THE RESULT BLOCK AT AN INDEX: from the own block `X` and the partner's block `Y`, the index's row of the result
    holds `X`'s row sum times the scale plus `Y`'s row sum times the scale. Each of the four bands agrees with that
    function under its rectangle (band `i`'s local row `j` is row 128 i + j), and the bands cover the block. -/
theorem outVal_rowS_apply (X Y : Vec Ideal S512x256 .f32) (y : S512x1.Idx) :
    outVal (F := Ideal) (rowS X) (rowS Y) y = rowVal X Y (y 0) := by
  unfold outVal
  refine View.canon_apply_of_pieces (Val := Elt Ideal) (e := .f32) (fun y : S512x1.Idx => rowVal X Y (y 0)) _ ?_ y (cover_out _ _ _ _ y)
  intro p hp
  simp only [List.mem_cons, List.not_mem_nil, or_false] at hp
  rcases hp with rfl | rfl | rfl | rfl
  · intro (x : S128x1.Idx)
    obtain ⟨j, z, rfl⟩ : ∃ (j : Fin 128) (z : Fin 1), x = ix2 j z := ⟨x 0, x 1, eq_ix2 x⟩
    show k0_pay6 (F := Ideal) (rowS X) (rowS Y) (ix2 j z) = rowVal X Y ((rO384.emb (ix2 j z)) 0)
    rw [pay6_apply, pay2_rowS_apply]
    exact congrArg (rowVal X Y) (Fin.ext (by show 128 * 3 + j.val = 384 + 1 * j.val; omega))
  · intro (x : S128x1.Idx)
    obtain ⟨j, z, rfl⟩ : ∃ (j : Fin 128) (z : Fin 1), x = ix2 j z := ⟨x 0, x 1, eq_ix2 x⟩
    show k0_pay5 (F := Ideal) (rowS X) (rowS Y) (ix2 j z) = rowVal X Y ((rO256.emb (ix2 j z)) 0)
    rw [pay5_apply, pay2_rowS_apply]
    exact congrArg (rowVal X Y) (Fin.ext (by show 128 * 2 + j.val = 256 + 1 * j.val; omega))
  · intro (x : S128x1.Idx)
    obtain ⟨j, z, rfl⟩ : ∃ (j : Fin 128) (z : Fin 1), x = ix2 j z := ⟨x 0, x 1, eq_ix2 x⟩
    show k0_pay4 (F := Ideal) (rowS X) (rowS Y) (ix2 j z) = rowVal X Y ((rO128.emb (ix2 j z)) 0)
    rw [pay4_apply, pay2_rowS_apply]
    exact congrArg (rowVal X Y) (Fin.ext (by show 128 * 1 + j.val = 128 + 1 * j.val; omega))
  · intro (x : S128x1.Idx)
    obtain ⟨j, z, rfl⟩ : ∃ (j : Fin 128) (z : Fin 1), x = ix2 j z := ⟨x 0, x 1, eq_ix2 x⟩
    show k0_pay3 (F := Ideal) (rowS X) (rowS Y) (ix2 j z) = rowVal X Y ((rO0.emb (ix2 j z)) 0)
    rw [pay3_apply, pay2_rowS_apply]
    exact congrArg (rowVal X Y) (Fin.ext (by show 128 * 0 + j.val = 0 + 1 * j.val; omega))

/-- info: 'Cert.KernelIdeal.HandValue.outVal_rowS_apply' depends on axioms: [propext, Classical.choice, Quot.sound] -/
#guard_msgs in #print axioms outVal_rowS_apply

end Cert.KernelIdeal.HandValue

end
-- ==== Proof.ValueBridge.lean ====
/- The kernel's result block is its block of the reference's result. Device `c` and its partner sit in the same
   mesh row and hold the two column halves of the same 512 rows; which of the two holds the first half depends
   on `c`'s column. Row by row, the own half's sum times 1/512 plus the partner half's sum times 1/512 is the
   whole row's sum divided by 512 — in either order of the halves. -/
import proofs.«900962_g7700000000000963_dist_mean_ax1_xy_m512_n256_v7x_xy2x2_f32_1_alg».proof.Proof.Spec
import proofs.«900962_g7700000000000963_dist_mean_ax1_xy_m512_n256_v7x_xy2x2_f32_1_alg».proof.Proof.ValueAlg
import proofs.«900962_g7700000000000963_dist_mean_ax1_xy_m512_n256_v7x_xy2x2_f32_1_alg».proof.Proof.ValueRef
import proofs.«900962_g7700000000000963_dist_mean_ax1_xy_m512_n256_v7x_xy2x2_f32_1_alg».proof.Proof.ValueKernel
import Idealize.ShloMosaic.Lib.Layout

noncomputable section

open scoped BigOperators

namespace Cert.KernelIdeal.HandValue

open Cert.KernelIdeal Cert.KernelIdeal.Gen Cert.KernelIdeal.Hand
open Idealize.ShloMosaic Idealize.ShloMosaic.ValueIdx

/-- The mesh positions of a device and its partner: the same block along the rows (mesh axis 0); along the
    columns (mesh axis 1) one holds block 0 and the other block 1. -/
theorem mesh_facts (c : Dev Cert.KernelIdeal.nD) :
    Layout.meshLin [2, 2] (nbr c).val [0] = Layout.meshLin [2, 2] c.val [0]
      ∧ ((Layout.meshLin [2, 2] c.val [1] = 0 ∧ Layout.meshLin [2, 2] (nbr c).val [1] = 1)
        ∨ (Layout.meshLin [2, 2] c.val [1] = 1 ∧ Layout.meshLin [2, 2] (nbr c).val [1] = 0)) := by
  revert c; decide

/-- THE VALUE BRIDGE: on every device, the result block computed from the device's block and its partner's
    block of the whole argument is the device's block of the reference's result. -/
theorem value_bridge (X' : Vec Ideal Cert.ReferenceIdeal.S1024x512 .f32) (c : Dev Cert.KernelIdeal.nD) :
    outVal (F := Ideal) (rowS (Layout.blockN ⟨2, ![512, 256]⟩ ⟨2, ![1024, 512]⟩ (Layout.meshBlock [2, 2] ![[0], [1]] c) X')) (rowS (Layout.blockN ⟨2, ![512, 256]⟩ ⟨2, ![1024, 512]⟩ (Layout.meshBlock [2, 2] ![[0], [1]] (nbr c)) X'))
      = Layout.blockN ⟨2, ![512, 1]⟩ ⟨2, ![1024, 1]⟩ (Layout.meshBlock [2, 2] ![[0], []] c) (refOut X') := by
  funext y
  rw [outVal_rowS_apply, Layout.blockN_apply, refOut_apply]
  unfold rowVal
  obtain ⟨hrow, hcol⟩ := mesh_facts c
  rcases hcol with ⟨h0, h1⟩ | ⟨h1, h0⟩
  · -- the device holds the first column half, its partner the second
    refine row_mean_fst _ _ _ (fun k => ?_) (fun k => ?_)
    · show X' _ = X' _
      refine congrArg X' (funext fun a => Fin.ext ?_)
      match a with
      | ⟨0, _⟩ => rfl
      | ⟨1, _⟩ =>
        show k.val = Layout.meshLin [2, 2] c.val [1] * 256 + k.val
        rw [h0]; omega
    · show X' _ = X' _
      refine congrArg X' (funext fun a => Fin.ext ?_)
      match a with
      | ⟨0, _⟩ =>
        show Layout.meshLin [2, 2] c.val [0] * 512 + (y 0).val = Layout.meshLin [2, 2] (nbr c).val [0] * 512 + (y 0).val
        rw [hrow]
      | ⟨1, _⟩ =>
        show 256 + k.val = Layout.meshLin [2, 2] (nbr c).val [1] * 256 + k.val
        rw [h1]
  · -- the device holds the second column half, its partner the first
    refine row_mean_snd _ _ _ (fun k => ?_) (fun k => ?_)
    · show X' _ = X' _
      refine congrArg X' (funext fun a => Fin.ext ?_)
      match a with
      | ⟨0, _⟩ =>
        show Layout.meshLin [2, 2] c.val [0] * 512 + (y 0).val = Layout.meshLin [2, 2] (nbr c).val [0] * 512 + (y 0).val
        rw [hrow]
      | ⟨1, _⟩ =>
        show k.val = Layout.meshLin [2, 2] (nbr c).val [1] * 256 + k.val
        rw [h0]; omega
    · show X' _ = X' _
      refine congrArg X' (funext fun a => Fin.ext ?_)
      match a with
      | ⟨0, _⟩ => rfl
      | ⟨1, _⟩ =>
        show 256 + k.val = Layout.meshLin [2, 2] c.val [1] * 256 + k.val
        rw [h1]

/-- info: 'Cert.KernelIdeal.HandValue.value_bridge' depends on axioms: [propext, Classical.choice, Quot.sound] -/
#guard_msgs in #print axioms value_bridge

end Cert.KernelIdeal.HandValue

end
-- ==== Proof.lean ====
/- The row mean on a 2 × 2 mesh, against the one-device mean over the whole array.
   The whole argument is a 1024 × 512 array; device `c`, at mesh position (c / 2, c % 2), holds the 512 × 256 block at
   that position and must end holding rows [512 (c / 2), 512 (c / 2) + 512) of the 1024 × 1 column of row means.
   Each device sums its block's rows over its 256 columns, exchanges these partial sums with its partner — the device
   in the same mesh row, which holds the other 256 columns of the same 512 rows —, and stores its own sums times 1/512
   plus its partner's sums times 1/512. The reference stores zero plus the sum of a row's 512 columns, divided by 512.
   THE FRAMES. The kernel's run (the entry handshake on the barrier semaphore, the one remote copy, its two waits) is
   proved once, for any float values, with each device's result named as a pure function of its own and its
   partner's input block and each input left unchanged; read at words it is the word-level kernel's frame, read at
   extended reals the idealized kernel's. The reference's frame is its run of six host operations.
   THE VALUE. Over the extended reals a row's 512 columns are the device's 256 and its partner's 256 (in the one
   order or the other, and addition commutes); multiplying by the finite nonnegative 1/512 distributes over the sum of
   the two halves whatever they are; and dividing by 512 is multiplying by 1/512. So each device's result block is its
   block of the reference's result, with no condition on the inputs.
   The idealization rewrote no operation: the kernel's text read at extended reals is its idealization. -/
import proofs.«900962_g7700000000000963_dist_mean_ax1_xy_m512_n256_v7x_xy2x2_f32_1_alg».proof.Defs
import proofs.«900962_g7700000000000963_dist_mean_ax1_xy_m512_n256_v7x_xy2x2_f32_1_alg».proof.Proof.Gen.Kernel
import proofs.«900962_g7700000000000963_dist_mean_ax1_xy_m512_n256_v7x_xy2x2_f32_1_alg».proof.Proof.Gen.KernelIdeal
import proofs.«900962_g7700000000000963_dist_mean_ax1_xy_m512_n256_v7x_xy2x2_f32_1_alg».proof.Proof.Gen.ReferenceIdeal
import proofs.«900962_g7700000000000963_dist_mean_ax1_xy_m512_n256_v7x_xy2x2_f32_1_alg».proof.Proof.Gen.Pre_finite_inputs_Kernel
import proofs.«900962_g7700000000000963_dist_mean_ax1_xy_m512_n256_v7x_xy2x2_f32_1_alg».proof.Proof.Gen.Pre_finite_inputs_ReferenceIdeal
import proofs.«900962_g7700000000000963_dist_mean_ax1_xy_m512_n256_v7x_xy2x2_f32_1_alg».proof.Proof.Launch
import proofs.«900962_g7700000000000963_dist_mean_ax1_xy_m512_n256_v7x_xy2x2_f32_1_alg».proof.Proof.KLaunch
import proofs.«900962_g7700000000000963_dist_mean_ax1_xy_m512_n256_v7x_xy2x2_f32_1_alg».proof.Proof.ValueBridge

noncomputable section

namespace Cert.Proof

open Idealize.ShloMosaic Idealize.SL.Sem

/-- The word-level kernel runs and leaves every device's input block unchanged: its run with the result's value dropped. -/
theorem frame_Kernel : Cert.frame_Kernel := fun m g _ =>
  (θ_run _ _ _).mono (fun _ h c => (h c).2) (Cert.Kernel.Hand.kernel_run (F := Bits) m g)

/-- The idealized kernel likewise: the same run read at extended reals. -/
theorem frame_KernelIdeal : Cert.frame_KernelIdeal := fun m g _ =>
  (θ_run _ _ _).mono (fun _ h c => (h c).2) (Cert.KernelIdeal.Hand.kernel_run (F := Ideal) m g)

/-- The reference runs and leaves its argument unchanged: its run with the result's value dropped. -/
theorem frame_ReferenceIdeal : Cert.frame_ReferenceIdeal := fun m g _ =>
  (θ_run _ _ _).mono (fun _ h c => (h c).2) (Cert.ReferenceIdeal.Value.run (F := Ideal) m g)

/-- From memories where every device holds its block of the reference's argument, both programs run, the reference
    ends with the column of row means, every device ends with its rows of that column, and no argument changes. -/
theorem algebraic : Cert.algebraic_KernelIdeal_ReferenceIdeal := fun m g m' g' _ hagree =>
  ⟨Cert.KernelIdeal.HandValue.refOut (m' (((0 : Dev Cert.ReferenceIdeal.nD).tc : Thread Cert.ReferenceIdeal.nD Cert.ReferenceIdeal.τ).loc Cert.ReferenceIdeal.main_arg0)),
    (θ_run _ _ _).mono (fun _ h c =>
      ⟨(h c).1.trans (by
          rw [hagree c, hagree (Cert.KernelIdeal.Hand.nbr c)]
          exact Cert.KernelIdeal.HandValue.value_bridge _ c),
        (h c).2⟩) (Cert.KernelIdeal.Hand.kernel_run (F := Ideal) m g),
    Cert.KernelIdeal.HandValue.ref_run m' g'⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_Kernel, frame_KernelIdeal, frame_ReferenceIdeal, trivial, algebraic⟩

end Cert.Proof

end
